-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  main_v18

def fn {F : FTy → Type} [FloatOps F] (main_arg0 : IVec S8192 32) (main_arg1 : FVec F S8192x8192 .f32) (main_arg2 : IVec S8192 32) (main_arg3 : FVec F S10000x64 .f32) (main_arg4 : FVec F S3x64x64 .f32) (main_arg5 : FVec F S3x64 .f32) : IVec S_ 1 :=
  let main_v0 : FVec F S8192x8192 .f32 := Host.absf main_arg1
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_v13 main_v16
-- ==== Kernel.lean ====
abbrev S8192 : Shape := ⟨1, ![8192]⟩
abbrev S8192x8192 : Shape := ⟨2, ![8192, 8192]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩
abbrev S8192x1 : Shape := ⟨2, ![8192, 1]⟩
abbrev S8192x64 : Shape := ⟨2, ![8192, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1024x64 : Shape := ⟨2, ![1024, 64]⟩
abbrev S256x8192 : Shape := ⟨2, ![256, 8192]⟩
abbrev S256x64 : Shape := ⟨2, ![256, 64]⟩
abbrev S512x8192 : Shape := ⟨2, ![512, 8192]⟩
abbrev S512x64 : Shape := ⟨2, ![512, 64]⟩

abbrev nBuf : Space → Nat
  | .hbm => 42
  | .vmem => 27
  | .smem => 0
  | _ => 0

abbrev bufTy : (tb : Table) → Fin (tcTables nBuf tb) → BufTy
  | .hbm, ⟨0, _⟩ => ⟨S8192, .i32⟩
  | .hbm, ⟨1, _⟩ => ⟨S8192x8192, .f32⟩
  | .hbm, ⟨2, _⟩ => ⟨S8192, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x64, .f32⟩
  | .hbm, ⟨15, _⟩ => ⟨S1x64x64, .f32⟩
  | .hbm, ⟨16, _⟩ => ⟨S64x64, .f32⟩
  | .hbm, ⟨17, _⟩ => ⟨S64x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S8192x64, .f32⟩
  | .hbm, ⟨22, _⟩ => ⟨S1x64x64, .f32⟩
  | .hbm, ⟨23, _⟩ => ⟨S64x64, .f32⟩
  | .hbm, ⟨24, _⟩ => ⟨S64x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S8192x8192, .bf16⟩
  | .hbm, ⟨29, _⟩ => ⟨S8192x64, .f32⟩
  | .hbm, ⟨30, _⟩ => ⟨S1x64x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S8192x64, .f32⟩
  | .hbm, ⟨37, _⟩ => ⟨S8192x64, .f32⟩
  | .hbm, ⟨38, _⟩ => ⟨S_, .f32⟩
  | .hbm, ⟨39, _⟩ => ⟨S256x64, .f32⟩
  | .hbm, ⟨40, _⟩ => ⟨S8192x1, .i32⟩
  | .hbm, ⟨41, _⟩ => ⟨S256x64, .f32⟩
  | .local _ .vmem, ⟨0, _⟩ => ⟨S1024x64, .f32⟩
  | .local _ .vmem, ⟨1, _⟩ => ⟨S1024x64, .f32⟩
  | .local _ .vmem, ⟨2, _⟩ => ⟨S64x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S8192x64, .f32⟩
  | .local _ .vmem, ⟨7, _⟩ => ⟨S256x8192, .f32⟩
  | .local _ .vmem, ⟨8, _⟩ => ⟨S256x8192, .f32⟩
  | .local _ .vmem, ⟨9, _⟩ => ⟨S64x64, .f32⟩
  | .local _ .vmem, ⟨10, _⟩ => ⟨S1x64, .f32⟩
  | .local _ .vmem, ⟨11, _⟩ => ⟨S256x8192, .bf16⟩
  | .local _ .vmem, ⟨12, _⟩ => ⟨S256x8192, .bf16⟩
  | .local _ .vmem, ⟨13, _⟩ => ⟨S256x64, .f32⟩
  | .local _ .vmem, ⟨14, _⟩ => ⟨S256x64, .f32⟩
  | .local _ .vmem, ⟨15, _⟩ => ⟨S8192x64, .f32⟩
  | .local _ .vmem, ⟨16, _⟩ => ⟨S512x8192, .bf16⟩
  | .local _ .vmem, ⟨17, _⟩ => ⟨S512x8192, .bf16⟩
  | .local _ .vmem, ⟨18, _⟩ => ⟨S64x64, .f32⟩
  | .local _ .vmem, ⟨19, _⟩ => ⟨S1x64, .f32⟩
  | .local _ .vmem, ⟨20, _⟩ => ⟨S512x64, .f32⟩
  | .local _ .vmem, ⟨21, _⟩ => ⟨S512x64, .f32⟩
  | .local _ .vmem, ⟨22, _⟩ => ⟨S8192x64, .f32⟩
  | .local _ .vmem, ⟨23, _⟩ => ⟨S512x8192, .bf16⟩
  | .local _ .vmem, ⟨24, _⟩ => ⟨S512x8192, .bf16⟩
  | .local _ .vmem, ⟨25, _⟩ => ⟨S512x64, .f32⟩
  | .local _ .vmem, ⟨26, _⟩ => ⟨S512x64, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v7 : BitVec 32 := Scalar.muli arg0 c256_i32
  v7
def k1_off1 (i : grid1.Coords) : Fin 2 → Nat :=
  let arg0 : BitVec 32 := BitVec.ofNat 32 (i 0).val
  let c256_i32 : BitVec 32 := 256#32
  let v7 : BitVec 32 := Scalar.muli arg0 c256_i32
  let v8 : BitVec 32 := v7
  let v9 : Index := Scalar.indexCast v8
  let c0_5 : Index := 0#32
  ![v9.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x8192 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def k2_mult1 (i : grid2.Coords) : BitVec 32 :=
  let arg0 : BitVec 32 := BitVec.ofNat 32 (i 0).val
  let c512_i32 : BitVec 32 := 512#32
  let v6 : BitVec 32 := Scalar.muli arg0 c512_i32
  v6
def k2_off1 (i : grid2.Coords) : Fin 2 → Nat :=
  let arg0 : BitVec 32 := BitVec.ofNat 32 (i 0).val
  let c512_i32 : BitVec 32 := 512#32
  let v6 : BitVec 32 := Scalar.muli arg0 c512_i32
  let v7 : BitVec 32 := v6
  let v8 : Index := Scalar.indexCast v7
  let c0_3 : Index := 0#32
  ![v8.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8192x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def k3_mult1 (i : grid3.Coords) : BitVec 32 :=
  let arg0 : BitVec 32 := BitVec.ofNat 32 (i 0).val
  let c512_i32 : BitVec 32 := 512#32
  let v6 : BitVec 32 := Scalar.muli arg0 c512_i32
  v6
def k3_off1 (i : grid3.Coords) : Fin 2 → Nat :=
  let arg0 : BitVec 32 := BitVec.ofNat 32 (i 0).val
  let c512_i32 : BitVec 32 := 512#32
  let v6 : BitVec 32 := Scalar.muli arg0 c512_i32
  let v7 : BitVec 32 := v6
  let v8 : Index := Scalar.indexCast v7
  let c0_3 : Index := 0#32
  ![v8.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S8192x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x8192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  slices_S3x64x64_S1x64x64_1_0_0 : S3x64x64.Slices ![1, 0, 0] S1x64x64
  slices_S3x64_S1x64_1_0 : S3x64.Slices ![1, 0] S1x64
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  h_S256x64 : 0 < S256x64.numel
  shapeCasts_S256x64_S256x64 : S256x64.ShapeCasts S256x64
  broadcasts_S1x64_S256x64 : S1x64.Broadcasts S256x64
  inb_S256x64_S256x64_0_0 : ∀ a, (![0, 0] : Fin 2 → Nat) a + S256x64.size a ≤ S256x64.size a
  slices_S3x64x64_S1x64x64_2_0_0 : S3x64x64.Slices ![2, 0, 0] S1x64x64
  slices_S3x64_S1x64_2_0 : S3x64.Slices ![2, 0] S1x64
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  h_S512x64 : 0 < S512x64.numel
  shapeCasts_S512x64_S512x64 : S512x64.ShapeCasts S512x64
  broadcasts_S1x64_S512x64 : S1x64.Broadcasts S512x64
  inb_S512x64_S512x64_0_0 : ∀ a, (![0, 0] : Fin 2 → Nat) a + S512x64.size a ≤ S512x64.size a
  bcast_S_S256x64 : S_.BroadcastsInDim S256x64 (![] : Fin 0 → Fin S256x64.rank)
  gather_S10000x64_S8192x1_S8192x64_1_0_n_n_0_1_164_wf : GatherDims.WF S10000x64 S8192x1 S8192x64 [1] [0] [] [0] [] 1 ![1, 64]
  dot_S1024x64_S64x64_S1024x64_1_0_0_1_n_n_wf : DotDims.WF S1024x64 S64x64 S1024x64 [1] [0] [0] [1] [] []
  dot_S256x8192_S8192x64_S256x64_1_0_0_1_n_n_wf : DotDims.WF S256x8192 S8192x64 S256x64 [1] [0] [0] [1] [] []
  dot_S256x64_S64x64_S256x64_1_0_0_1_n_n_wf : DotDims.WF S256x64 S64x64 S256x64 [1] [0] [0] [1] [] []
  dot_S512x8192_S8192x64_S512x64_1_0_0_1_n_n_wf : DotDims.WF S512x8192 S8192x64 S512x64 [1] [0] [0] [1] [] []
  dot_S512x64_S64x64_S512x64_1_0_0_1_n_n_wf : DotDims.WF S512x64 S64x64 S512x64 [1] [0] [0] [1] [] []
  scatter_S256x64_S8192x1_S8192x64_1_0_0_1_wf : ScatterDims.WF S256x64 S8192x1 S8192x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S256x64.size a ≤ S8192x64.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S8192x64.size a
  hwx1_0 : ∀ i : grid1.Coords, EltTy.bits .f32 = 32 ∨ (Rect.block (s := S8192x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x8192.size a ≤ S8192x8192.size a
  hwx1_4 : ∀ i : grid1.Coords, EltTy.bits .bf16 = 32 ∨ (Rect.block (s := S8192x8192) S256x8192.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S8192x64.size a
  hwx1_5 : ∀ i : grid1.Coords, EltTy.bits .f32 = 32 ∨ (Rect.block (s := S8192x64) S256x64.size (cc1_transform_5 i) (hinb1_5 i)).WholeWords (EltTy.packing .f32)
  hrank2 : 0 < grid2.rank
  k2_mult1_dvd : ∀ i : grid2.Coords, 8 ∣ (k2_mult1 i).toNat
  k2_off1_inb : ∀ i : grid2.Coords, ∀ a, (k2_off1 i) a + S512x64.size a ≤ S8192x64.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S8192x64.size a
  hwx2_0 : ∀ i : grid2.Coords, EltTy.bits .f32 = 32 ∨ (Rect.block (s := S8192x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x8192.size a ≤ S8192x8192.size a
  hwx2_1 : ∀ i : grid2.Coords, EltTy.bits .bf16 = 32 ∨ (Rect.block (s := S8192x8192) S512x8192.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x64.size a ≤ S8192x64.size a
  hwx2_4 : ∀ i : grid2.Coords, EltTy.bits .f32 = 32 ∨ (Rect.block (s := S8192x64) S512x64.size (cc2_transform_4 i) (hinb2_4 i)).WholeWords (EltTy.packing .f32)
  hrank3 : 0 < grid3.rank
  k3_mult1_dvd : ∀ i : grid3.Coords, 8 ∣ (k3_mult1 i).toNat
  k3_off1_inb : ∀ i : grid3.Coords, ∀ a, (k3_off1 i) a + S512x64.size a ≤ S8192x64.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S8192x64.size a
  hwx3_0 : ∀ i : grid3.Coords, EltTy.bits .f32 = 32 ∨ (Rect.block (s := S8192x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x8192.size a ≤ S8192x8192.size a
  hwx3_1 : ∀ i : grid3.Coords, EltTy.bits .bf16 = 32 ∨ (Rect.block (s := S8192x8192) S512x8192.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x64.size a ≤ S8192x64.size a
  hwx3_2 : ∀ i : grid3.Coords, EltTy.bits .f32 = 32 ∨ (Rect.block (s := S8192x64) S512x64.size (cc3_transform_2 i) (hinb3_2 i)).WholeWords (EltTy.packing .f32)

variable [Facts₀]

def gather_S10000x64_S8192x1_S8192x64_1_0_n_n_0_1_164 : GatherDims S10000x64 S8192x1 S8192x64 where
  offsetDims := [1]
  collapsedSliceDims := [0]
  operandBatchingDims := []
  startIndicesBatchingDims := []
  startIndexMap := [0]
  indexVectorDim := 1
  sliceSizes := ![1, 64]
  wf := gather_S10000x64_S8192x1_S8192x64_1_0_n_n_0_1_164_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def scatter_S256x64_S8192x1_S8192x64_1_0_0_1 : ScatterDims S256x64 S8192x1 S8192x64 where
  updateWindowDims := [1]
  insertedWindowDims := [0]
  scatterDimsToOperandDims := [0]
  indexVectorDim := 1
  wf := scatter_S256x64_S8192x1_S8192x64_1_0_0_1_wf

abbrev win0_0 : Pipeline.Window sig grid0 :=
  Pipeline.Window.ofSpec (Memref.whole main_v6) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S8192x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20_0) S256x8192.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_1) S256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20_1) S8192x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v20_0) S512x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v27) S8192x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v20_0) S512x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S512x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192 : Shape := ⟨1, ![8192]⟩
abbrev S8192x8192 : Shape := ⟨2, ![8192, 8192]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩
abbrev S8192x1 : Shape := ⟨2, ![8192, 1]⟩
abbrev S8192x64 : Shape := ⟨2, ![8192, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S256x64 : Shape := ⟨2, ![256, 64]⟩

abbrev nBuf : Space → Nat
  | .hbm => 58
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x8192, .f32⟩
  | .hbm, ⟨2, _⟩ => ⟨S8192, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x64, .f32⟩
  | .hbm, ⟨15, _⟩ => ⟨S1x64x64, .f32⟩
  | .hbm, ⟨16, _⟩ => ⟨S64x64, .f32⟩
  | .hbm, ⟨17, _⟩ => ⟨S8192x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S8192x64, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S1x64x64, .f32⟩
  | .hbm, ⟨29, _⟩ => ⟨S64x64, .f32⟩
  | .hbm, ⟨30, _⟩ => ⟨S8192x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S_, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S1x64x64, .f32⟩
  | .hbm, ⟨42, _⟩ => ⟨S64x64, .f32⟩
  | .hbm, ⟨43, _⟩ => ⟨S8192x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S8192x64, .f32⟩
  | .hbm, ⟨48, _⟩ => ⟨S8192x64, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S256x64, .f32⟩
  | .hbm, ⟨56, _⟩ => ⟨S8192x1, .i32⟩
  | .hbm, ⟨57, _⟩ => ⟨S256x64, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call2_cst : Ref sig .tc := ⟨.hbm, 49, rfl⟩
abbrev main_call2_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  gather_S10000x64_S8192x1_S8192x64_1_0_n_n_0_1_164_wf : GatherDims.WF S10000x64 S8192x1 S8192x64 [1] [0] [] [0] [] 1 ![1, 64]
  dot_S8192x64_S64x64_S8192x64_1_1_0_0_n_n_wf : DotDims.WF S8192x64 S64x64 S8192x64 [1] [1] [0] [0] [] []
  dot_S8192x8192_S8192x64_S8192x64_1_0_0_1_n_n_wf : DotDims.WF S8192x8192 S8192x64 S8192x64 [1] [0] [0] [1] [] []
  scatter_S256x64_S8192x1_S8192x64_1_0_0_1_wf : ScatterDims.WF S256x64 S8192x1 S8192x64 [1] [0] [0] 1

variable [Facts₀]

def gather_S10000x64_S8192x1_S8192x64_1_0_n_n_0_1_164 : GatherDims S10000x64 S8192x1 S8192x64 where
  offsetDims := [1]
  collapsedSliceDims := [0]
  operandBatchingDims := []
  startIndicesBatchingDims := []
  startIndexMap := [0]
  indexVectorDim := 1
  sliceSizes := ![1, 64]
  wf := gather_S10000x64_S8192x1_S8192x64_1_0_n_n_0_1_164_wf
def dot_S8192x64_S64x64_S8192x64_1_1_0_0_n_n : DotDims S8192x64 S64x64 S8192x64 where
  lhsContracting := [1]
  rhsContracting := [1]
  lhsNonContracting := [0]
  rhsNonContracting := [0]
  lhsBatch := []
  rhsBatch := []
  wf := dot_S8192x64_S64x64_S8192x64_1_1_0_0_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def scatter_S256x64_S8192x1_S8192x64_1_0_0_1 : ScatterDims S256x64 S8192x1 S8192x64 where
  updateWindowDims := [1]
  insertedWindowDims := [0]
  scatterDimsToOperandDims := [0]
  indexVectorDim := 1
  wf := scatter_S256x64_S8192x1_S8192x64_1_0_0_1_wf

class Facts : Prop extends Facts₀ where

variable [Facts]
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Blocks.lean ====
/-
  A block of M rows of the network, as a kernel's body computes it.

  Generic in the block's height M: the layer on a block (`dense_block`: the product with the staged weight into a zero
  accumulator, the bias row broadcast down the block, the maximum with a broadcast zero; the roundings to the narrower float
  format before the product are the identity on the extended reals), and the message passing step on a block
  (`propagate_block`: the block's own rows of the features plus the block's rows of the adjacency times all the features).
  Each is read at a block coordinate (p, e) as the plain sums of Spec.lean.
-/
import Idealize.ShloMosaic.PureOps.Ideal.Laws
import Idealize.ShloMosaic.Lib.ValueIdx
import Idealize.ShloMosaic.Lib.Pipeline.Value
import proofs.«430473_j49417893707860_3_alg».proof.Proof.LibPlainDot

noncomputable section

namespace Cert.Mpnn.Blocks

open Idealize.ShloMosaic Idealize.ShloMosaic.ValueIdx Cert.Lib.PlainDot

variable (M : Nat)

/-- A [1, 64] row broadcast down a block of M rows reads, at (p, e), the row at e. -/
theorem row_broadcast_apply {α : Type} (x : (⟨2, ![1, 64]⟩ : Shape).Idx → α)
    (h : (⟨2, ![1, 64]⟩ : Shape).Broadcasts ⟨2, ![M, 64]⟩) (p : Fin M) (e : Fin 64) :
    broadcastTo ⟨2, ![M, 64]⟩ x h (ix2 p e) = x (ix2 0 e) :=
  broadcastTo_apply x h (ix2 p e) (ix2 0 e) fun a => by
    match a with
    | ⟨0, _⟩ => rfl
    | ⟨1, _⟩ => rfl

/-- One layer on a block: at (p, e) the sum over d of x[p, d] · w[d, e], plus the bias row at e, floored at zero. -/
theorem dense_block (x : FVec Ideal ⟨2, ![M, 64]⟩ .f32) (w : FVec Ideal ⟨2, ![64, 64]⟩ .f32) (b : FVec Ideal ⟨2, ![1, 64]⟩ .f32)
    (hb : (⟨2, ![1, 64]⟩ : Shape).Broadcasts ⟨2, ![M, 64]⟩) (h1 h2 : FTy.bits .bf16 < FTy.bits .f32) (p : Fin M) (e : Fin 64) :
    maximumf (addf (matmul (DotDims.plain M 64 64) none (truncf .bf16 x h1) (truncf .bf16 w h2)
          (constant ⟨2, ![M, 64]⟩ .f32 0x00000000#32)) (broadcastTo ⟨2, ![M, 64]⟩ b hb))
        (broadcast ⟨2, ![M, 64]⟩ (Scalar.ofBits .f32 0x00000000#32)) (ix2 p e)
      = max ((∑ d : Fin 64, (x (ix2 p d) : EReal) * (w (ix2 d e) : EReal)) + (b (ix2 0 e) : EReal)) 0 := by
  rw [maximumf_apply, addf_apply, broadcast_apply, row_broadcast_apply]
  show max (FloatOps.matmul (DotDims.plain M 64 64) none (truncf .bf16 x h1) (truncf .bf16 w h2)
      (constant ⟨2, ![M, 64]⟩ .f32 0x00000000#32) (ix2 p e) + b (ix2 0 e)) (Ideal.ofBits .f32 0x00000000#32) = _
  rw [Ideal.ofBits_zero_f32, matmul_plain_zero_ix2]
  rfl

/-- The message passing step on a block: at (p, e) the block's own feature plus the sum over all atoms k of a[p, k] · h[k, e]. -/
theorem propagate_block {φ : FTy} (a : FVec Ideal ⟨2, ![M, 8192]⟩ φ) (h : FVec Ideal ⟨2, ![8192, 64]⟩ .f32)
    (own : FVec Ideal ⟨2, ![M, 64]⟩ .f32) (h1 : FTy.bits .bf16 < FTy.bits .f32) (p : Fin M) (e : Fin 64) :
    addf own (matmul (DotDims.plain M 8192 64) none a (truncf .bf16 h h1) (constant ⟨2, ![M, 64]⟩ .f32 0x00000000#32)) (ix2 p e)
      = (own (ix2 p e) : EReal) + ∑ k : Fin 8192, (a (ix2 p k) : EReal) * (h (ix2 k e) : EReal) := by
  rw [addf_apply]
  show (own (ix2 p e) : EReal) + FloatOps.matmul (DotDims.plain M 8192 64) none a (truncf .bf16 h h1)
      (constant ⟨2, ![M, 64]⟩ .f32 0x00000000#32) (ix2 p e) = _
  rw [matmul_plain_zero_ix2]
  rfl

end Cert.Mpnn.Blocks

end
-- ==== Proof.Spec.lean ====
/-
  The message-passing network both programs compute, index by index over the extended reals.

  One layer is a linear map with bias and a rectifier, `dense`: at atom n and feature e,
  max (∑ d, v[n, d] · w[e, d] + b[e], 0), the weight indexed [e, d] as the reference holds it; then the residual
  message passing step `propagate`: h[n, e] + ∑ k, a[n, k] · h[k, e]. The network is three layers of the two.
  `denseT` is the same layer over the operands as a kernel stages them — the weight already transposed, [d, e], and the
  bias a [1, 64] row — and `denseT_eq_dense` says that it is `dense` of the untransposed weight and the flat bias.
-/
import Idealize.ShloMosaic.PureOps.Ideal
import Idealize.ShloMosaic.Lib.ValueIdx
import Idealize.ShloMosaic.Lib.Pipeline.Value

noncomputable section

namespace Cert.Mpnn

open Idealize.ShloMosaic Idealize.ShloMosaic.ValueIdx

/-- The adjacency matrix's shape, the atom features', a layer's weight's, its bias's flat and as a row. -/
abbrev SA : Shape := ⟨2, ![8192, 8192]⟩
abbrev SH : Shape := ⟨2, ![8192, 64]⟩
abbrev SW : Shape := ⟨2, ![64, 64]⟩
abbrev SB : Shape := ⟨1, ![64]⟩
abbrev SR : Shape := ⟨2, ![1, 64]⟩

/-- One layer's linear map, bias and rectifier, the weight indexed [e, d]. -/
def dense (v : SH.Idx → EReal) (w : SW.Idx → EReal) (b : SB.Idx → EReal) : SH.Idx → EReal :=
  fun i => let n : Fin 8192 := i 0; let e : Fin 64 := i 1
    max ((∑ d : Fin 64, v (ix2 n d) * w (ix2 e d)) + b (ix1 e)) 0

/-- The same layer over a weight already transposed, [d, e], and a bias row [1, 64]. -/
def denseT (v : SH.Idx → EReal) (wt : SW.Idx → EReal) (b : SR.Idx → EReal) : SH.Idx → EReal :=
  fun i => let n : Fin 8192 := i 0; let e : Fin 64 := i 1
    max ((∑ d : Fin 64, v (ix2 n d) * wt (ix2 d e)) + b (ix2 0 e)) 0

/-- The residual message passing step: each atom keeps its features and adds its neighbours' weighted by the adjacency row. -/
def propagate (a : SA.Idx → EReal) (h : SH.Idx → EReal) : SH.Idx → EReal :=
  fun i => let n : Fin 8192 := i 0; let e : Fin 64 := i 1
    h (ix2 n e) + ∑ k : Fin 8192, a (ix2 n k) * h (ix2 k e)

/-- The three maps at explicit coordinates. -/
theorem dense_apply (v : SH.Idx → EReal) (w : SW.Idx → EReal) (b : SB.Idx → EReal) (n : Fin 8192) (e : Fin 64) :
    dense v w b (ix2 n e) = max ((∑ d : Fin 64, v (ix2 n d) * w (ix2 e d)) + b (ix1 e)) 0 := rfl
theorem denseT_apply (v : SH.Idx → EReal) (wt : SW.Idx → EReal) (b : SR.Idx → EReal) (n : Fin 8192) (e : Fin 64) :
    denseT v wt b (ix2 n e) = max ((∑ d : Fin 64, v (ix2 n d) * wt (ix2 d e)) + b (ix2 0 e)) 0 := rfl
theorem propagate_apply (a : SA.Idx → EReal) (h : SH.Idx → EReal) (n : Fin 8192) (e : Fin 64) :
    propagate a h (ix2 n e) = h (ix2 n e) + ∑ k : Fin 8192, a (ix2 n k) * h (ix2 k e) := rfl

/-- Three layers from the embedded atoms `g`. -/
def network (g : SH.Idx → EReal) (a : SA.Idx → EReal) (w0 : SW.Idx → EReal) (b0 : SB.Idx → EReal)
    (w1 : SW.Idx → EReal) (b1 : SB.Idx → EReal) (w2 : SW.Idx → EReal) (b2 : SB.Idx → EReal) : SH.Idx → EReal :=
  propagate a (dense (propagate a (dense (propagate a (dense g w0 b0)) w1 b1)) w2 b2)

/-- The transposed weight at [d, e] is the weight at [e, d]. -/
theorem transpose_weight (w : SW.Idx → EReal) (ht : SW.Transposes [1, 0] SW) (d e : Fin 64) :
    transpose SW [1, 0] w ht (ix2 d e) = w (ix2 e d) :=
  transpose_apply [1, 0] w ht (ix2 d e) (ix2 e d) fun b => by
    match b with
    | ⟨0, _⟩ => rfl
    | ⟨1, _⟩ => rfl

/-- The bias reshaped to a row, at [0, e], is the bias at e. -/
theorem row_bias (b : SB.Idx → EReal) (hc : SB.ShapeCasts SR) (e : Fin 64) :
    shapeCast SR b hc (ix2 0 e) = b (ix1 e) :=
  shapeCast_apply b hc (ix2 0 e) (ix1 e) (by
    rw [Shape.rowMajor_val_one, Shape.rowMajor_val_two]
    show e.val = (0 : Fin 1).val * 64 + e.val
    simp)

/-- The layer over the staged operands is the layer over the weight and bias they were made from. -/
theorem denseT_eq_dense (v : SH.Idx → EReal) (w : SW.Idx → EReal) (b : SB.Idx → EReal)
    (ht : SW.Transposes [1, 0] SW) (hc : SB.ShapeCasts SR) :
    denseT v (transpose SW [1, 0] w ht) (shapeCast SR b hc) = dense v w b := by
  funext i
  obtain ⟨n, e, rfl⟩ : ∃ (n : Fin 8192) (e : Fin 64), i = ix2 n e := ⟨i 0, i 1, eq_ix2 i⟩
  rw [denseT_apply, dense_apply, row_bias]
  refine congrArg (fun s : EReal => max (s + b (ix1 e)) 0) (Finset.sum_congr rfl fun d _ => ?_)
  rw [transpose_weight]

end Cert.Mpnn

end
-- ==== Proof.Region0.lean ====
/-
  The first kernel: the first layer of the network on 8 blocks of 1024 atoms.

  At grid point t the body loads rows 1024·t … 1024·t + 1023 of the embedded atoms, the whole transposed weight and the whole
  bias row, and stores the layer of that block; the 8 output blocks tile the [8192, 64] result. So, whatever the buffers hold
  when the kernel is entered (`V`), its result array ends as `denseT` of the three operand arrays (`value`).
-/
import proofs.«430473_j49417893707860_3_alg».proof.Proof.Gen.KernelIdeal.Frame
import proofs.«430473_j49417893707860_3_alg».proof.Proof.Blocks
import proofs.«430473_j49417893707860_3_alg».proof.Proof.Spec
import Idealize.ShloMosaic.Lib.Pipeline.Value
import Idealize.ShloMosaic.Lib.Tactic

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.Mpnn Cert.Mpnn.Blocks

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are the plain ones: rows × contraction times contraction × columns. -/
theorem dims_plain : dot_S1024x64_S64x64_S1024x64_1_0_0_1_n_n = DotDims.plain 1024 64 64 := rfl

/-- What the body stores, at a block coordinate (p, e): the layer of the loaded block, weight and bias row. -/
theorem pay_apply (x0 : Vec Ideal S1024x64 .f32) (x1 : Vec Ideal S64x64 .f32) (x2 : Vec Ideal S1x64 .f32) (p : Fin 1024) (e : Fin 64) :
    k0_pay1 x0 x1 x2 (ix2 p e)
      = max ((∑ d : Fin 64, (x0 (ix2 p d) : EReal) * (x1 (ix2 d e) : EReal)) + (x2 (ix2 0 e) : EReal)) 0 := by
  unfold k0_pay1
  simp only [shapeCast_self]
  rw [dims_plain]
  exact dense_block 1024 x0 x1 x2 _ _ _ p e

/-- The same against the layer over whole arrays: if the loaded block is rows o … o + 1023 of `v` and the other two loads are the
    whole weight and bias row, the stored value at block index j is the layer at array index i = (o + j₀, j₁). -/
theorem point (x0 : Vec Ideal S1024x64 .f32) (x1 : Vec Ideal S64x64 .f32) (x2 : Vec Ideal S1x64 .f32)
    (v : SH.Idx → EReal) (wt : SW.Idx → EReal) (b : SR.Idx → EReal) (o : Nat) (j : S1024x64.Idx) (i : SH.Idx)
    (hx0 : ∀ (p : Fin 1024) (d : Fin 64) (n : Fin 8192), n.val = o + p.val → x0 (ix2 p d) = v (ix2 n d))
    (hx1 : x1 = wt) (hx2 : x2 = b) (hi0 : (i 0).val = o + (j 0).val) (hi1 : (i 1).val = (j 1).val) :
    k0_pay1 x0 x1 x2 j = denseT v wt b i := by
  obtain ⟨p, e, rfl⟩ : ∃ (p : Fin 1024) (e : Fin 64), j = ix2 p e := ⟨j 0, j 1, eq_ix2 j⟩
  obtain ⟨n, e', rfl⟩ : ∃ (n : Fin 8192) (e' : Fin 64), i = ix2 n e' := ⟨i 0, i 1, eq_ix2 i⟩
  have he : e = e' := (Fin.ext hi1).symm
  subst he
  subst hx1 hx2
  rw [pay_apply, denseT_apply]
  refine congrArg (fun s : EReal => max (s + x2 (ix2 0 e)) 0) (Finset.sum_congr rfl fun d _ => ?_)
  rw [hx0 p d n hi0]

/-- The printed index maps, decided over the grid: the atoms' window and the result's move down one block per point, the weight's
    and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the layer over the operand arrays as the kernel finds them. -/
theorem flushed_eq (c : Dev nD) (t : Fin cfg0.N) :
    (dat0 V c).flushed 3 t
      = ((cfg0.win 3).blk t).view.read (Elt Ideal) (denseT (V c main_v6) (V c main_v9) (V c main_v12)) := by
  show (cfg0.win 3).cut (grid0.coords t) ((dat0 V c).after 3 t) = _
  rw [after0_3]
  unfold out0_3
  rw [View.canon_unit_zero hz]
  simp only [View.ld_unit_zero (S := S1024x64) hz, View.ld_unit_zero (S := S64x64) hz, View.ld_unit_zero (S := S1x64) hz]
  obtain ⟨e0, e1, e2, e3, e4, e5, e6, e7⟩ := idx_facts t
  funext j
  show k0_pay1 (iblk0 V c 0 t) (iblk0 V c 1 t) (iblk0 V c 2 t) j
    = denseT (V c main_v6) (V c main_v9) (V c main_v12) (((cfg0.win 3).blk t).view.emb j)
  refine point (iblk0 V c 0 t) (iblk0 V c 1 t) (iblk0 V c 2 t) _ _ _ (t.val * 1024) j _ ?_ ?_ ?_ ?_ ?_
  · intro p d n hn
    unfold iblk0
    rw [View.read_apply]
    show V c main_v6 _ = V c main_v6 _
    refine congrArg (V c main_v6) (funext fun a => Fin.ext ?_)
    match a with
    | ⟨0, _⟩ => show win0_0.index t (0 : Fin 2) * 1024 + 1 * p.val = n.val; rw [e0, hn]; omega
    | ⟨1, _⟩ => show win0_0.index t (1 : Fin 2) * 64 + 1 * d.val = d.val; rw [e1]; omega
  · funext y
    unfold iblk0
    rw [View.read_apply]
    show V c main_v9 _ = V c main_v9 _
    refine congrArg (V c main_v9) (funext fun a => Fin.ext ?_)
    match a with
    | ⟨0, _⟩ => show win0_1.index t (0 : Fin 2) * 64 + 1 * (y 0).val = (y 0).val; rw [e2]; omega
    | ⟨1, _⟩ => show win0_1.index t (1 : Fin 2) * 64 + 1 * (y 1).val = (y 1).val; rw [e3]; omega
  · funext y
    unfold iblk0
    rw [View.read_apply]
    show V c main_v12 _ = V c main_v12 _
    refine congrArg (V c main_v12) (funext fun a => Fin.ext ?_)
    match a with
    | ⟨0, _⟩ => show win0_2.index t (0 : Fin 2) * 1 + 1 * (y 0).val = (y 0).val; rw [e4]; omega
    | ⟨1, _⟩ => show win0_2.index t (1 : Fin 2) * 64 + 1 * (y 1).val = (y 1).val; rw [e5]; omega
  · show win0_3.index t (0 : Fin 2) * 1024 + 1 * (j 0).val = t.val * 1024 + (j 0).val; rw [e6]; omega
  · show win0_3.index t (1 : Fin 2) * 64 + 1 * (j 1).val = (j 1).val; rw [e7]; omega

/-- An index of the result array is in point t's block iff each coordinate is in the block's range on its axis. -/
theorem mem_blk (t : Fin cfg0.N) (i : S8192x64.Idx) :
    i ∈ ((cfg0.win 3).blk t).view.set
      ↔ ∀ a : Fin 2, win0_3.index t a * S1024x64.size a ≤ (i a).val ∧ (i a).val < win0_3.index t a * S1024x64.size a + S1024x64.size a := by
  show i ∈ ((View.whole main_v13).slice (win0_3.rect t)).set ↔ _
  rw [View.set_slice_whole, Rect.mem_set_unit]
  exact Iff.rfl

/-- Every row of the result is in the block of the point its number divided by 1024 names. -/
theorem cover (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 8 := N_0
  refine ⟨⟨(i 0).val / 1024, by rw [hN]; omega⟩, flush0_3 _, ?_⟩
  rw [mem_blk]
  obtain ⟨-, -, -, -, -, -, e6, e7⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e6]; show (i 0).val / 1024 * 1024 ≤ (i 0).val ∧ (i 0).val < (i 0).val / 1024 * 1024 + 1024; omega
  | ⟨1, _⟩ =>
    show win0_3.index _ (1 : Fin 2) * 64 ≤ (i 1).val ∧ (i 1).val < win0_3.index _ (1 : Fin 2) * 64 + 64
    rw [e7]; omega

/-- THE RESULT ARRAY of the first kernel: the first layer over the operand arrays as the kernel finds them. -/
theorem value (c : Dev nD) :
    (dat0 V c).arrAt 3 cfg0.N = denseT (V c main_v6) (V c main_v9) (V c main_v12) :=
  (dat0 V c).arrAt_eq_of_cover 3 _ (fun t _ => flushed_eq V c t) (cover)

end Cert.KernelIdeal.Region0

end
-- ==== Proof.Region1.lean ====
/-
  The second kernel: the first message passing step fused with the second layer, on 32 blocks of 256 atoms, which also writes
  a copy of the adjacency matrix in the narrower float format.

  At grid point t the body loads rows 256·t … of the adjacency matrix, stores them rounded to the narrower format (the identity
  on the extended reals) into the copy's block, and with those rounded rows and ALL the features forms the step's block (the
  features' own rows, read at an offset the body computes, plus the product) and applies the next layer to it. The 32 blocks of
  each output tile its array. So the copy ends equal to the adjacency matrix (`value_copy`) and the features' result as
  `denseT` of `propagate` of the arrays the kernel finds (`value`).
-/
import proofs.«430473_j49417893707860_3_alg».proof.Proof.Gen.KernelIdeal.Frame
import proofs.«430473_j49417893707860_3_alg».proof.Proof.Blocks
import proofs.«430473_j49417893707860_3_alg».proof.Proof.Spec
import Idealize.ShloMosaic.Lib.Pipeline.Value
import Idealize.ShloMosaic.Lib.Tactic

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.Mpnn Cert.Mpnn.Blocks

variable (V : (c : Dev nD) → (b : Ref sig .tc) → Buf (Elt Ideal) ((c : Thread nD τ).loc b))

theorem hz : (![0, 0] : Fin 2 → Nat) = fun _ => 0 := funext fun a => by fin_cases a <;> rfl

/-- Both products' dimension numbers are the plain ones. -/
theorem dims_step : dot_S256x8192_S8192x64_S256x64_1_0_0_1_n_n = DotDims.plain 256 8192 64 := rfl
theorem dims_layer : dot_S256x64_S64x64_S256x64_1_0_0_1_n_n = DotDims.plain 256 64 64 := rfl

/-- What the body's store into the copy's block leaves: the adjacency block, rounded. -/
theorem out_copy_eq (c : Dev nD) (i : grid1.Coords) (arg1 : Memref sig .tc .vmem S8192x64 .f32) (harg1 : arg1.IsWhole)
    (arg2 : Memref sig .tc .vmem S256x8192 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S256x8192 .bf16) (harg5 : arg5.IsWhole)
    (arg6 : Memref sig .tc .vmem S256x64 .f32) (harg6 : arg6.IsWhole)
    (x0 : Vec Ideal S8192x64 .f32) (x1 : Vec Ideal S256x8192 .f32) (x2 : Vec Ideal S64x64 .f32) (x3 : Vec Ideal S1x64 .f32) :
    out1_A_4 c i arg1 harg1 arg2 harg2 arg3 harg3 arg4 harg4 arg5 harg5 arg6 harg6 x0 x1 x2 x3 = k1_pay1 x1 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  rw [View.canon_unit_zero hz]
  simp only [View.readAt_eq_ld, harg2.read_unread, View.ld_unit_zero (S := S256x8192) hz]

/-- What its store into the features' block leaves: its payload of the five loads. -/
theorem out_eq (c : Dev nD) (i : grid1.Coords) (arg1 : Memref sig .tc .vmem S8192x64 .f32) (harg1 : arg1.IsWhole)
    (arg2 : Memref sig .tc .vmem S256x8192 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S256x8192 .bf16) (harg5 : arg5.IsWhole)
    (arg6 : Memref sig .tc .vmem S256x64 .f32) (harg6 : arg6.IsWhole)
    (x0 : Vec Ideal S8192x64 .f32) (x1 : Vec Ideal S256x8192 .f32) (x2 : Vec Ideal S64x64 .f32) (x3 : Vec Ideal S1x64 .f32) :
    out1_A_5 c i arg1 harg1 arg2 harg2 arg3 harg3 arg4 harg4 arg5 harg5 arg6 harg6 x0 x1 x2 x3
      = k1_pay2 x1 x0 (View.ld x0 (Rect.unit (s := S8192x64) (k1_off1 i) S256x64.size (k1_off1_inb i))) x2 x3 := by
  unfold out1_A_5
  rw [View.read_writes_eq_canon _ _ _ (cover1_A_5 c i arg1 harg1 arg2 harg2 arg3 harg3 arg4 harg4 arg5 harg5 arg6 harg6 x0 x1 x2 x3)]
  unfold kernelRun1_A
  dsimp only
  rw [View.canon_unit_zero hz]
  simp only [View.readAt_eq_ld, harg1.read_unread, harg2.read_unread, harg3.read_unread, harg4.read_unread,
    View.ld_unit_zero (S := S8192x64) hz, View.ld_unit_zero (S := S256x8192) hz, View.ld_unit_zero (S := S64x64) hz,
    View.ld_unit_zero (S := S1x64) hz]

/-- The payload at a block coordinate (p, e): the next layer of the step's block. -/
theorem pay_apply (a : Vec Ideal S256x8192 .f32) (h : Vec Ideal S8192x64 .f32) (own : Vec Ideal S256x64 .f32)
    (w : Vec Ideal S64x64 .f32) (b : Vec Ideal S1x64 .f32) (p : Fin 256) (e : Fin 64) :
    k1_pay2 a h own w b (ix2 p e)
      = max ((∑ d : Fin 64, ((own (ix2 p d) : EReal) + ∑ k : Fin 8192, (a (ix2 p k) : EReal) * (h (ix2 k d) : EReal))
          * (w (ix2 d e) : EReal)) + (b (ix2 0 e) : EReal)) 0 := by
  unfold k1_pay2 k1_pay1
  simp only [shapeCast_self]
  rw [dims_step, dims_layer]
  refine (dense_block 256 _ w b _ _ _ p e).trans ?_
  refine congrArg (fun s : EReal => max (s + b (ix2 0 e)) 0) (Finset.sum_congr rfl fun d _ => ?_)
  exact congrArg (fun s : EReal => s * w (ix2 d e)) (propagate_block 256 (truncf .bf16 a _) h own _ p d)

/-- The same against the two maps over whole arrays, at array index i = (o + j₀, j₁). -/
theorem point (a : Vec Ideal S256x8192 .f32) (h : Vec Ideal S8192x64 .f32) (own : Vec Ideal S256x64 .f32)
    (w : Vec Ideal S64x64 .f32) (b : Vec Ideal S1x64 .f32)
    (A : SA.Idx → EReal) (H : SH.Idx → EReal) (WT : SW.Idx → EReal) (BB : SR.Idx → EReal) (o : Nat) (j : S256x64.Idx) (i : SH.Idx)
    (ha : ∀ (p : Fin 256) (k : Fin 8192) (n : Fin 8192), n.val = o + p.val → (a (ix2 p k) : EReal) = A (ix2 n k))
    (hh : h = H)
    (hown : ∀ (p : Fin 256) (e : Fin 64) (n : Fin 8192), n.val = o + p.val → (own (ix2 p e) : EReal) = h (ix2 n e))
    (hw : w = WT) (hb : b = BB)
    (hi0 : (i 0).val = o + (j 0).val) (hi1 : (i 1).val = (j 1).val) :
    k1_pay2 a h own w b j = denseT (propagate A H) WT BB i := by
  obtain ⟨p, e, rfl⟩ : ∃ (p : Fin 256) (e : Fin 64), j = ix2 p e := ⟨j 0, j 1, eq_ix2 j⟩
  obtain ⟨n, e', rfl⟩ : ∃ (n : Fin 8192) (e' : Fin 64), i = ix2 n e' := ⟨i 0, i 1, eq_ix2 i⟩
  have he : e = e' := (Fin.ext hi1).symm
  subst he
  subst hh hw hb
  rw [pay_apply, denseT_apply]
  refine congrArg (fun s : EReal => max (s + b (ix2 0 e)) 0) (Finset.sum_congr rfl fun d _ => ?_)
  rw [propagate_apply, hown p d n hi0]
  refine congrArg (fun s : EReal => (h (ix2 n d) + s) * w (ix2 d e)) (Finset.sum_congr rfl fun k _ => ?_)
  rw [ha p k n hi0]

/-- The printed index maps and the body's computed offset, decided over the grid. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ k1_off1 (grid1.coords t) (0 : Fin 2) = t.val * 256 ∧ k1_off1 (grid1.coords t) (1 : Fin 2) = 0 :=
  (by decide +kernel : ∀ t : Fin grid1.N, _)

/-- The adjacency matrix as the kernel finds it, read as extended reals (the copy's array has the narrower format's type, over
    the same values). -/
abbrev adjacency (c : Dev nD) : SA.Idx → EReal := V c main_arg1

/-- WHAT POINT t WRITES BACK to the copy is block t of the adjacency matrix. -/
theorem flushed_copy_eq (c : Dev nD) (t : Fin cfg1.N) :
    (dat1 V c).flushed 4 t = ((cfg1.win 4).blk t).view.read (Elt Ideal) (adjacency V c) := by
  show (cfg1.win 4).cut (grid1.coords t) ((dat1 V c).after 4 t) = _
  rw [after1_4]
  unfold outsAt1
  dsimp only
  rw [out_copy_eq]
  obtain ⟨e0, e1, e2, e3, e4, e5, e6, e7, e8, e9, e10, e11, e12, e13⟩ := idx_facts t
  funext j
  show (iblk1 V c 1 t) j = adjacency V c (((cfg1.win 4).blk t).view.emb j)
  unfold iblk1
  rw [View.read_apply]
  show V c main_arg1 _ = V c main_arg1 _
  refine congrArg (V c main_arg1) (funext fun a => Fin.ext ?_)
  match a with
  | ⟨0, _⟩ => show win1_1.index t (0 : Fin 2) * 256 + 1 * (j 0).val = win1_4.index t (0 : Fin 2) * 256 + 1 * (j 0).val; rw [e2, e8]
  | ⟨1, _⟩ => show win1_1.index t (1 : Fin 2) * 8192 + 1 * (j 1).val = win1_4.index t (1 : Fin 2) * 8192 + 1 * (j 1).val; rw [e3, e9]

/-- WHAT POINT t WRITES BACK to the features is block t of the layer of the step over the operand arrays. -/
theorem flushed_eq (c : Dev nD) (t : Fin cfg1.N) :
    (dat1 V c).flushed 5 t
      = ((cfg1.win 5).blk t).view.read (Elt Ideal)
          (denseT (propagate (V c main_arg1) (V c main_v13)) (V c main_v16) (V c main_v19)) := by
  show (cfg1.win 5).cut (grid1.coords t) ((dat1 V c).after 5 t) = _
  rw [after1_5]
  unfold outsAt1
  dsimp only
  rw [out_eq]
  obtain ⟨e0, e1, e2, e3, e4, e5, e6, e7, e8, e9, e10, e11, e12, e13⟩ := idx_facts t
  have hfeat : (iblk1 V c 0 t : Vec Ideal S8192x64 .f32) = V c main_v13 := by
    funext y
    unfold iblk1
    rw [View.read_apply]
    show V c main_v13 _ = V c main_v13 _
    refine congrArg (V c main_v13) (funext fun a => Fin.ext ?_)
    match a with
    | ⟨0, _⟩ => show win1_0.index t (0 : Fin 2) * 8192 + 1 * (y 0).val = (y 0).val; rw [e0]; omega
    | ⟨1, _⟩ => show win1_0.index t (1 : Fin 2) * 64 + 1 * (y 1).val = (y 1).val; rw [e1]; omega
  have hweight : (iblk1 V c 2 t : Vec Ideal S64x64 .f32) = V c main_v16 := by
    funext y
    unfold iblk1
    rw [View.read_apply]
    show V c main_v16 _ = V c main_v16 _
    refine congrArg (V c main_v16) (funext fun a => Fin.ext ?_)
    match a with
    | ⟨0, _⟩ => show win1_2.index t (0 : Fin 2) * 64 + 1 * (y 0).val = (y 0).val; rw [e4]; omega
    | ⟨1, _⟩ => show win1_2.index t (1 : Fin 2) * 64 + 1 * (y 1).val = (y 1).val; rw [e5]; omega
  have hbias : (iblk1 V c 3 t : Vec Ideal S1x64 .f32) = V c main_v19 := by
    funext y
    unfold iblk1
    rw [View.read_apply]
    show V c main_v19 _ = V c main_v19 _
    refine congrArg (V c main_v19) (funext fun a => Fin.ext ?_)
    match a with
    | ⟨0, _⟩ => show win1_3.index t (0 : Fin 2) * 1 + 1 * (y 0).val = (y 0).val; rw [e6]; omega
    | ⟨1, _⟩ => show win1_3.index t (1 : Fin 2) * 64 + 1 * (y 1).val = (y 1).val; rw [e7]; omega
  funext j
  show k1_pay2 (iblk1 V c 1 t) (iblk1 V c 0 t)
      (View.ld (iblk1 V c 0 t) (Rect.unit (s := S8192x64) (k1_off1 (grid1.coords t)) S256x64.size (k1_off1_inb (grid1.coords t))))
      (iblk1 V c 2 t) (iblk1 V c 3 t) j
    = denseT (propagate (V c main_arg1) (V c main_v13)) (V c main_v16) (V c main_v19) (((cfg1.win 5).blk t).view.emb j)
  refine point (iblk1 V c 1 t) (iblk1 V c 0 t) _ (iblk1 V c 2 t) (iblk1 V c 3 t) _ _ _ _ (t.val * 256) j _ ?_ hfeat ?_ hweight hbias ?_ ?_
  · intro p k n hn
    unfold iblk1
    rw [View.read_apply]
    show V c main_arg1 _ = V c main_arg1 _
    refine congrArg (V c main_arg1) (funext fun a => Fin.ext ?_)
    match a with
    | ⟨0, _⟩ => show win1_1.index t (0 : Fin 2) * 256 + 1 * p.val = n.val; rw [e2, hn]; omega
    | ⟨1, _⟩ => show win1_1.index t (1 : Fin 2) * 8192 + 1 * k.val = k.val; rw [e3]; omega
  · intro p e n hn
    show (iblk1 V c 0 t : Vec Ideal S8192x64 .f32) _ = (iblk1 V c 0 t : Vec Ideal S8192x64 .f32) (ix2 n e)
    refine congrArg (iblk1 V c 0 t : Vec Ideal S8192x64 .f32) (funext fun a => Fin.ext ?_)
    match a with
    | ⟨0, _⟩ => show k1_off1 (grid1.coords t) (0 : Fin 2) + 1 * p.val = n.val; rw [e12, hn]; omega
    | ⟨1, _⟩ => show k1_off1 (grid1.coords t) (1 : Fin 2) + 1 * e.val = e.val; rw [e13]; omega
  · show win1_5.index t (0 : Fin 2) * 256 + 1 * (j 0).val = t.val * 256 + (j 0).val; rw [e10]; omega
  · show win1_5.index t (1 : Fin 2) * 64 + 1 * (j 1).val = (j 1).val; rw [e11]; omega

/-- An index of an output array is in point t's block iff each coordinate is in the block's range on its axis. -/
theorem mem_blk_copy (t : Fin cfg1.N) (i : S8192x8192.Idx) :
    i ∈ ((cfg1.win 4).blk t).view.set
      ↔ ∀ a : Fin 2, win1_4.index t a * S256x8192.size a ≤ (i a).val ∧ (i a).val < win1_4.index t a * S256x8192.size a + S256x8192.size a := by
  show i ∈ ((View.whole main_v20_0).slice (win1_4.rect t)).set ↔ _
  rw [View.set_slice_whole, Rect.mem_set_unit]
  exact Iff.rfl
theorem mem_blk (t : Fin cfg1.N) (i : S8192x64.Idx) :
    i ∈ ((cfg1.win 5).blk t).view.set
      ↔ ∀ a : Fin 2, win1_5.index t a * S256x64.size a ≤ (i a).val ∧ (i a).val < win1_5.index t a * S256x64.size a + S256x64.size a := by
  show i ∈ ((View.whole main_v20_1).slice (win1_5.rect t)).set ↔ _
  rw [View.set_slice_whole, Rect.mem_set_unit]
  exact Iff.rfl

/-- Every row of either output is in the block of the point its number divided by 256 names. -/
theorem cover_copy (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  have hN : cfg1.N = 32 := N_1
  refine ⟨⟨(i 0).val / 256, by rw [hN]; omega⟩, flush1_4 _, ?_⟩
  rw [mem_blk_copy]
  obtain ⟨-, -, -, -, -, -, -, -, e8, e9, -, -, -, -⟩ := idx_facts ⟨(i 0).val / 256, by rw [hN]; omega⟩
  intro a
  match a with
  | ⟨0, _⟩ =>
    show win1_4.index _ (0 : Fin 2) * 256 ≤ (i 0).val ∧ (i 0).val < win1_4.index _ (0 : Fin 2) * 256 + 256
    rw [e8]; show (i 0).val / 256 * 256 ≤ (i 0).val ∧ (i 0).val < (i 0).val / 256 * 256 + 256; omega
  | ⟨1, _⟩ =>
    show win1_4.index _ (1 : Fin 2) * 8192 ≤ (i 1).val ∧ (i 1).val < win1_4.index _ (1 : Fin 2) * 8192 + 8192
    rw [e9]; omega
theorem cover (i : S8192x64.Idx) : ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 32 := N_1
  refine ⟨⟨(i 0).val / 256, by rw [hN]; omega⟩, flush1_5 _, ?_⟩
  rw [mem_blk]
  obtain ⟨-, -, -, -, -, -, -, -, -, -, e10, e11, -, -⟩ := idx_facts ⟨(i 0).val / 256, by rw [hN]; omega⟩
  intro a
  match a with
  | ⟨0, _⟩ =>
    show win1_5.index _ (0 : Fin 2) * 256 ≤ (i 0).val ∧ (i 0).val < win1_5.index _ (0 : Fin 2) * 256 + 256
    rw [e10]; show (i 0).val / 256 * 256 ≤ (i 0).val ∧ (i 0).val < (i 0).val / 256 * 256 + 256; omega
  | ⟨1, _⟩ =>
    show win1_5.index _ (1 : Fin 2) * 64 ≤ (i 1).val ∧ (i 1).val < win1_5.index _ (1 : Fin 2) * 64 + 64
    rw [e11]; omega

/-- THE COPY: the second kernel leaves the adjacency matrix in the copy's array. -/
theorem value_copy (c : Dev nD) : (dat1 V c).arrAt 4 cfg1.N = adjacency V c :=
  (dat1 V c).arrAt_eq_of_cover 4 (adjacency V c) (fun t _ => flushed_copy_eq V c t) (cover_copy)

/-- THE FEATURES' RESULT ARRAY of the second kernel: the next layer of the message passing step over the arrays as it finds them. -/
theorem value (c : Dev nD) :
    (dat1 V c).arrAt 5 cfg1.N = denseT (propagate (V c main_arg1) (V c main_v13)) (V c main_v16) (V c main_v19) :=
  (dat1 V c).arrAt_eq_of_cover 5 _ (fun t _ => flushed_eq V c t) (cover)

end Cert.KernelIdeal.Region1

end
-- ==== Proof.Region2.lean ====
/-
  The third kernel: a message passing step fused with the next layer, on 16 blocks of 512 atoms.

  At grid point t the body loads rows 512·t … of the adjacency copy and ALL the features, forms the step's block (the features'
  own rows, read at an offset the body computes from the point, plus the product), and applies the next layer to that block with
  the whole transposed weight and bias row; the 16 output blocks tile the [8192, 64] result. So the result array ends as
  `denseT` of `propagate` of the arrays the kernel finds (`value`).
-/
import proofs.«430473_j49417893707860_3_alg».proof.Proof.Gen.KernelIdeal.Frame
import proofs.«430473_j49417893707860_3_alg».proof.Proof.Blocks
import proofs.«430473_j49417893707860_3_alg».proof.Proof.Spec
import Idealize.ShloMosaic.Lib.Pipeline.Value
import Idealize.ShloMosaic.Lib.Tactic

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.Mpnn Cert.Mpnn.Blocks

variable (V : (c : Dev nD) → (b : Ref sig .tc) → Buf (Elt Ideal) ((c : Thread nD τ).loc b))

theorem hz : (![0, 0] : Fin 2 → Nat) = fun _ => 0 := funext fun a => by fin_cases a <;> rfl

/-- Both products' dimension numbers are the plain ones. -/
theorem dims_step : dot_S512x8192_S8192x64_S512x64_1_0_0_1_n_n = DotDims.plain 512 8192 64 := rfl
theorem dims_layer : dot_S512x64_S64x64_S512x64_1_0_0_1_n_n = DotDims.plain 512 64 64 := rfl

/-- What the body's one store leaves in the output block: its payload of the five loads — the adjacency block, all the features,
    the features' rows at the offset the body computes, the weight and the bias row. -/
theorem out_eq (c : Dev nD) (i : grid2.Coords) (arg1 : Memref sig .tc .vmem S8192x64 .f32) (harg1 : arg1.IsWhole)
    (arg2 : Memref sig .tc .vmem S512x8192 .bf16) (harg2 : arg2.IsWhole) (arg3 : Memref sig .tc .vmem S64x64 .f32) (harg3 : arg3.IsWhole)
    (arg4 : Memref sig .tc .vmem S1x64 .f32) (harg4 : arg4.IsWhole) (arg5 : Memref sig .tc .vmem S512x64 .f32) (harg5 : arg5.IsWhole)
    (x0 : Vec Ideal S8192x64 .f32) (x1 : Vec Ideal S512x8192 .bf16) (x2 : Vec Ideal S64x64 .f32) (x3 : Vec Ideal S1x64 .f32) :
    out2_A_4 c i arg1 harg1 arg2 harg2 arg3 harg3 arg4 harg4 arg5 harg5 x0 x1 x2 x3
      = k2_pay1 x1 x0 (View.ld x0 (Rect.unit (s := S8192x64) (k2_off1 i) S512x64.size (k2_off1_inb i))) x2 x3 := by
  unfold out2_A_4
  rw [View.read_writes_eq_canon _ _ _ (cover2_A_4 c i arg1 harg1 arg2 harg2 arg3 harg3 arg4 harg4 arg5 harg5 x0 x1 x2 x3)]
  unfold kernelRun2_A
  dsimp only
  rw [View.canon_unit_zero hz]
  simp only [View.readAt_eq_ld, harg1.read_unread, harg2.read_unread, harg3.read_unread, harg4.read_unread,
    View.ld_unit_zero (S := S8192x64) hz, View.ld_unit_zero (S := S512x8192) hz, View.ld_unit_zero (S := S64x64) hz,
    View.ld_unit_zero (S := S1x64) hz]

/-- The payload at a block coordinate (p, e): the next layer of the step's block. -/
theorem pay_apply (a : Vec Ideal S512x8192 .bf16) (h : Vec Ideal S8192x64 .f32) (own : Vec Ideal S512x64 .f32)
    (w : Vec Ideal S64x64 .f32) (b : Vec Ideal S1x64 .f32) (p : Fin 512) (e : Fin 64) :
    k2_pay1 a h own w b (ix2 p e)
      = max ((∑ d : Fin 64, ((own (ix2 p d) : EReal) + ∑ k : Fin 8192, (a (ix2 p k) : EReal) * (h (ix2 k d) : EReal))
          * (w (ix2 d e) : EReal)) + (b (ix2 0 e) : EReal)) 0 := by
  unfold k2_pay1
  simp only [shapeCast_self]
  rw [dims_step, dims_layer]
  refine (dense_block 512 _ w b _ _ _ p e).trans ?_
  refine congrArg (fun s : EReal => max (s + b (ix2 0 e)) 0) (Finset.sum_congr rfl fun d _ => ?_)
  exact congrArg (fun s : EReal => s * w (ix2 d e)) (propagate_block 512 a h own _ p d)

/-- The same against the two maps over whole arrays, at array index i = (o + j₀, j₁). -/
theorem point (a : Vec Ideal S512x8192 .bf16) (h : Vec Ideal S8192x64 .f32) (own : Vec Ideal S512x64 .f32)
    (w : Vec Ideal S64x64 .f32) (b : Vec Ideal S1x64 .f32)
    (A : SA.Idx → EReal) (H : SH.Idx → EReal) (WT : SW.Idx → EReal) (BB : SR.Idx → EReal) (o : Nat) (j : S512x64.Idx) (i : SH.Idx)
    (ha : ∀ (p : Fin 512) (k : Fin 8192) (n : Fin 8192), n.val = o + p.val → (a (ix2 p k) : EReal) = A (ix2 n k))
    (hh : h = H)
    (hown : ∀ (p : Fin 512) (e : Fin 64) (n : Fin 8192), n.val = o + p.val → (own (ix2 p e) : EReal) = h (ix2 n e))
    (hw : w = WT) (hb : b = BB)
    (hi0 : (i 0).val = o + (j 0).val) (hi1 : (i 1).val = (j 1).val) :
    k2_pay1 a h own w b j = denseT (propagate A H) WT BB i := by
  obtain ⟨p, e, rfl⟩ : ∃ (p : Fin 512) (e : Fin 64), j = ix2 p e := ⟨j 0, j 1, eq_ix2 j⟩
  obtain ⟨n, e', rfl⟩ : ∃ (n : Fin 8192) (e' : Fin 64), i = ix2 n e' := ⟨i 0, i 1, eq_ix2 i⟩
  have he : e = e' := (Fin.ext hi1).symm
  subst he
  subst hh hw hb
  rw [pay_apply, denseT_apply]
  refine congrArg (fun s : EReal => max (s + b (ix2 0 e)) 0) (Finset.sum_congr rfl fun d _ => ?_)
  rw [propagate_apply, hown p d n hi0]
  refine congrArg (fun s : EReal => (h (ix2 n d) + s) * w (ix2 d e)) (Finset.sum_congr rfl fun k _ => ?_)
  rw [ha p k n hi0]

/-- The printed index maps and the body's computed offset, decided over the grid. -/
theorem idx_facts : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ k2_off1 (grid2.coords t) (0 : Fin 2) = t.val * 512 ∧ k2_off1 (grid2.coords t) (1 : Fin 2) = 0 :=
  (by decide +kernel : ∀ t : Fin grid2.N, _)

/-- WHAT POINT t WRITES BACK is block t of the layer of the step over the operand arrays as the kernel finds them. -/
theorem flushed_eq (c : Dev nD) (t : Fin cfg2.N) :
    (dat2 V c).flushed 4 t
      = ((cfg2.win 4).blk t).view.read (Elt Ideal)
          (denseT (propagate (V c main_v20_0) (V c main_v20_1)) (V c main_v23) (V c main_v26)) := by
  show (cfg2.win 4).cut (grid2.coords t) ((dat2 V c).after 4 t) = _
  rw [after2_4]
  unfold outsAt2
  rw [out_eq]
  obtain ⟨e0, e1, e2, e3, e4, e5, e6, e7, e8, e9, e10, e11⟩ := idx_facts t
  have hfeat : (iblk2 V c 0 t : Vec Ideal S8192x64 .f32) = V c main_v20_1 := by
    funext y
    unfold iblk2
    rw [View.read_apply]
    show V c main_v20_1 _ = V c main_v20_1 _
    refine congrArg (V c main_v20_1) (funext fun a => Fin.ext ?_)
    match a with
    | ⟨0, _⟩ => show win2_0.index t (0 : Fin 2) * 8192 + 1 * (y 0).val = (y 0).val; rw [e0]; omega
    | ⟨1, _⟩ => show win2_0.index t (1 : Fin 2) * 64 + 1 * (y 1).val = (y 1).val; rw [e1]; omega
  have hweight : (iblk2 V c 2 t : Vec Ideal S64x64 .f32) = V c main_v23 := by
    funext y
    unfold iblk2
    rw [View.read_apply]
    show V c main_v23 _ = V c main_v23 _
    refine congrArg (V c main_v23) (funext fun a => Fin.ext ?_)
    match a with
    | ⟨0, _⟩ => show win2_2.index t (0 : Fin 2) * 64 + 1 * (y 0).val = (y 0).val; rw [e4]; omega
    | ⟨1, _⟩ => show win2_2.index t (1 : Fin 2) * 64 + 1 * (y 1).val = (y 1).val; rw [e5]; omega
  have hbias : (iblk2 V c 3 t : Vec Ideal S1x64 .f32) = V c main_v26 := by
    funext y
    unfold iblk2
    rw [View.read_apply]
    show V c main_v26 _ = V c main_v26 _
    refine congrArg (V c main_v26) (funext fun a => Fin.ext ?_)
    match a with
    | ⟨0, _⟩ => show win2_3.index t (0 : Fin 2) * 1 + 1 * (y 0).val = (y 0).val; rw [e6]; omega
    | ⟨1, _⟩ => show win2_3.index t (1 : Fin 2) * 64 + 1 * (y 1).val = (y 1).val; rw [e7]; omega
  funext j
  show k2_pay1 (iblk2 V c 1 t) (iblk2 V c 0 t)
      (View.ld (iblk2 V c 0 t) (Rect.unit (s := S8192x64) (k2_off1 (grid2.coords t)) S512x64.size (k2_off1_inb (grid2.coords t))))
      (iblk2 V c 2 t) (iblk2 V c 3 t) j
    = denseT (propagate (V c main_v20_0) (V c main_v20_1)) (V c main_v23) (V c main_v26) (((cfg2.win 4).blk t).view.emb j)
  refine point (iblk2 V c 1 t) (iblk2 V c 0 t) _ (iblk2 V c 2 t) (iblk2 V c 3 t) _ _ _ _ (t.val * 512) j _ ?_ hfeat ?_ hweight hbias ?_ ?_
  · intro p k n hn
    unfold iblk2
    rw [View.read_apply]
    show V c main_v20_0 _ = V c main_v20_0 _
    refine congrArg (V c main_v20_0) (funext fun a => Fin.ext ?_)
    match a with
    | ⟨0, _⟩ => show win2_1.index t (0 : Fin 2) * 512 + 1 * p.val = n.val; rw [e2, hn]; omega
    | ⟨1, _⟩ => show win2_1.index t (1 : Fin 2) * 8192 + 1 * k.val = k.val; rw [e3]; omega
  · intro p e n hn
    show (iblk2 V c 0 t : Vec Ideal S8192x64 .f32) _ = (iblk2 V c 0 t : Vec Ideal S8192x64 .f32) (ix2 n e)
    refine congrArg (iblk2 V c 0 t : Vec Ideal S8192x64 .f32) (funext fun a => Fin.ext ?_)
    match a with
    | ⟨0, _⟩ => show k2_off1 (grid2.coords t) (0 : Fin 2) + 1 * p.val = n.val; rw [e10, hn]; omega
    | ⟨1, _⟩ => show k2_off1 (grid2.coords t) (1 : Fin 2) + 1 * e.val = e.val; rw [e11]; omega
  · show win2_4.index t (0 : Fin 2) * 512 + 1 * (j 0).val = t.val * 512 + (j 0).val; rw [e8]; omega
  · show win2_4.index t (1 : Fin 2) * 64 + 1 * (j 1).val = (j 1).val; rw [e9]; omega

/-- An index of the result array is in point t's block iff each coordinate is in the block's range on its axis. -/
theorem mem_blk (t : Fin cfg2.N) (i : S8192x64.Idx) :
    i ∈ ((cfg2.win 4).blk t).view.set
      ↔ ∀ a : Fin 2, win2_4.index t a * S512x64.size a ≤ (i a).val ∧ (i a).val < win2_4.index t a * S512x64.size a + S512x64.size a := by
  show i ∈ ((View.whole main_v27).slice (win2_4.rect t)).set ↔ _
  rw [View.set_slice_whole, Rect.mem_set_unit]
  exact Iff.rfl

/-- Every row of the result is in the block of the point its number divided by 512 names. -/
theorem cover (i : S8192x64.Idx) : ∃ t : Fin cfg2.N, (cfg2.win 4).flush t = true ∧ i ∈ ((cfg2.win 4).blk t).view.set := by
  have hi0 : (i 0).val < 8192 := (i 0).isLt
  have hi1 : (i 1).val < 64 := (i 1).isLt
  have hN : cfg2.N = 16 := N_2
  refine ⟨⟨(i 0).val / 512, by rw [hN]; omega⟩, flush2_4 _, ?_⟩
  rw [mem_blk]
  obtain ⟨-, -, -, -, -, -, -, -, e8, e9, -, -⟩ := idx_facts ⟨(i 0).val / 512, by rw [hN]; omega⟩
  intro a
  match a with
  | ⟨0, _⟩ =>
    show win2_4.index _ (0 : Fin 2) * 512 ≤ (i 0).val ∧ (i 0).val < win2_4.index _ (0 : Fin 2) * 512 + 512
    rw [e8]; show (i 0).val / 512 * 512 ≤ (i 0).val ∧ (i 0).val < (i 0).val / 512 * 512 + 512; omega
  | ⟨1, _⟩ =>
    show win2_4.index _ (1 : Fin 2) * 64 ≤ (i 1).val ∧ (i 1).val < win2_4.index _ (1 : Fin 2) * 64 + 64
    rw [e9]; omega

/-- THE RESULT ARRAY of the third kernel: the next layer of the message passing step, over the arrays as the kernel finds them. -/
theorem value (c : Dev nD) :
    (dat2 V c).arrAt 4 cfg2.N = denseT (propagate (V c main_v20_0) (V c main_v20_1)) (V c main_v23) (V c main_v26) :=
  (dat2 V c).arrAt_eq_of_cover 4 _ (fun t _ => flushed_eq V c t) (cover)

end Cert.KernelIdeal.Region2

end
-- ==== Proof.Region3.lean ====
/-
  The fourth kernel: the last message passing step on 16 blocks of 512 atoms.

  At grid point t the body loads rows 512·t … 512·t + 511 of the adjacency copy and ALL the features, multiplies, and adds the
  features' own rows 512·t … (read from the same whole array at an offset the body computes from the point); the 16 output blocks
  tile the [8192, 64] result. So the result array ends as `propagate` of the adjacency copy and the features, as the kernel
  finds them (`value`).
-/
import proofs.«430473_j49417893707860_3_alg».proof.Proof.Gen.KernelIdeal.Frame
import proofs.«430473_j49417893707860_3_alg».proof.Proof.Blocks
import proofs.«430473_j49417893707860_3_alg».proof.Proof.Spec
import Idealize.ShloMosaic.Lib.Pipeline.Value
import Idealize.ShloMosaic.Lib.Tactic

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.Mpnn Cert.Mpnn.Blocks

variable (V : (c : Dev nD) → (b : Ref sig .tc) → Buf (Elt Ideal) ((c : Thread nD τ).loc b))

theorem hz : (![0, 0] : Fin 2 → Nat) = fun _ => 0 := funext fun a => by fin_cases a <;> rfl

/-- The product's dimension numbers are the plain ones. -/
theorem dims_plain : dot_S512x8192_S8192x64_S512x64_1_0_0_1_n_n = DotDims.plain 512 8192 64 := rfl

/-- What the body's one store leaves in the output block: its payload of the three loads — the adjacency block, all the
    features, and the features' rows at the offset the body computes. -/
theorem out_eq (c : Dev nD) (i : grid3.Coords) (arg1 : Memref sig .tc .vmem S8192x64 .f32) (harg1 : arg1.IsWhole)
    (arg2 : Memref sig .tc .vmem S512x8192 .bf16) (harg2 : arg2.IsWhole) (arg3 : Memref sig .tc .vmem S512x64 .f32) (harg3 : arg3.IsWhole)
    (x0 : Vec Ideal S8192x64 .f32) (x1 : Vec Ideal S512x8192 .bf16) :
    out3_A_2 c i arg1 harg1 arg2 harg2 arg3 harg3 x0 x1
      = k3_pay1 x1 x0 (View.ld x0 (Rect.unit (s := S8192x64) (k3_off1 i) S512x64.size (k3_off1_inb i))) := by
  unfold out3_A_2
  rw [View.read_writes_eq_canon _ _ _ (cover3_A_2 c i arg1 harg1 arg2 harg2 arg3 harg3 x0 x1)]
  unfold kernelRun3_A
  dsimp only
  rw [View.canon_unit_zero hz]
  simp only [View.readAt_eq_ld, harg1.read_unread, harg2.read_unread, View.ld_unit_zero (S := S8192x64) hz,
    View.ld_unit_zero (S := S512x8192) hz]

/-- The payload at a block coordinate (p, e): the own feature plus the adjacency row's product with all the features. -/
theorem pay_apply (a : Vec Ideal S512x8192 .bf16) (h : Vec Ideal S8192x64 .f32) (own : Vec Ideal S512x64 .f32) (p : Fin 512) (e : Fin 64) :
    k3_pay1 a h own (ix2 p e) = (own (ix2 p e) : EReal) + ∑ k : Fin 8192, (a (ix2 p k) : EReal) * (h (ix2 k e) : EReal) := by
  unfold k3_pay1
  simp only [shapeCast_self]
  rw [dims_plain]
  exact propagate_block 512 a h own _ p e

/-- The same against the step over whole arrays: if the adjacency block is rows o … of `A` and the own rows are rows o … of the
    features, the stored value at block index j is the step at array index i = (o + j₀, j₁). -/
theorem point (a : Vec Ideal S512x8192 .bf16) (h : Vec Ideal S8192x64 .f32) (own : Vec Ideal S512x64 .f32)
    (A : SA.Idx → EReal) (H : SH.Idx → EReal) (o : Nat) (j : S512x64.Idx) (i : SH.Idx)
    (ha : ∀ (p : Fin 512) (k : Fin 8192) (n : Fin 8192), n.val = o + p.val → (a (ix2 p k) : EReal) = A (ix2 n k))
    (hh : h = H)
    (hown : ∀ (p : Fin 512) (e : Fin 64) (n : Fin 8192), n.val = o + p.val → (own (ix2 p e) : EReal) = h (ix2 n e))
    (hi0 : (i 0).val = o + (j 0).val) (hi1 : (i 1).val = (j 1).val) :
    k3_pay1 a h own j = propagate A H i := by
  obtain ⟨p, e, rfl⟩ : ∃ (p : Fin 512) (e : Fin 64), j = ix2 p e := ⟨j 0, j 1, eq_ix2 j⟩
  obtain ⟨n, e', rfl⟩ : ∃ (n : Fin 8192) (e' : Fin 64), i = ix2 n e' := ⟨i 0, i 1, eq_ix2 i⟩
  have he : e = e' := (Fin.ext hi1).symm
  subst he
  subst hh
  rw [pay_apply, propagate_apply, hown p e n hi0]
  refine congrArg (fun s : EReal => h (ix2 n e) + s) (Finset.sum_congr rfl fun k _ => ?_)
  rw [ha p k n hi0]

/-- The printed index maps and the body's computed offset, decided over the grid: the features' window stays, the adjacency's
    and the result's move down one block per point, and the own rows start at 512 times the point. -/
theorem idx_facts : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ k3_off1 (grid3.coords t) (0 : Fin 2) = t.val * 512 ∧ k3_off1 (grid3.coords t) (1 : Fin 2) = 0 :=
  (by decide +kernel : ∀ t : Fin grid3.N, _)

/-- WHAT POINT t WRITES BACK is block t of the step over the operand arrays as the kernel finds them. -/
theorem flushed_eq (c : Dev nD) (t : Fin cfg3.N) :
    (dat3 V c).flushed 2 t
      = ((cfg3.win 2).blk t).view.read (Elt Ideal) (propagate (V c main_v20_0) (V c main_v27)) := by
  show (cfg3.win 2).cut (grid3.coords t) ((dat3 V c).after 2 t) = _
  rw [after3_2]
  unfold outsAt3
  rw [out_eq]
  obtain ⟨e0, e1, e2, e3, e4, e5, e6, e7⟩ := idx_facts t
  have hfeat : (iblk3 V c 0 t : Vec Ideal S8192x64 .f32) = V c main_v27 := by
    funext y
    unfold iblk3
    rw [View.read_apply]
    show V c main_v27 _ = V c main_v27 _
    refine congrArg (V c main_v27) (funext fun a => Fin.ext ?_)
    match a with
    | ⟨0, _⟩ => show win3_0.index t (0 : Fin 2) * 8192 + 1 * (y 0).val = (y 0).val; rw [e0]; omega
    | ⟨1, _⟩ => show win3_0.index t (1 : Fin 2) * 64 + 1 * (y 1).val = (y 1).val; rw [e1]; omega
  funext j
  show k3_pay1 (iblk3 V c 1 t) (iblk3 V c 0 t)
      (View.ld (iblk3 V c 0 t) (Rect.unit (s := S8192x64) (k3_off1 (grid3.coords t)) S512x64.size (k3_off1_inb (grid3.coords t)))) j
    = propagate (V c main_v20_0) (V c main_v27) (((cfg3.win 2).blk t).view.emb j)
  refine point (iblk3 V c 1 t) (iblk3 V c 0 t) _ _ _ (t.val * 512) j _ ?_ hfeat ?_ ?_ ?_
  · intro p k n hn
    unfold iblk3
    rw [View.read_apply]
    show V c main_v20_0 _ = V c main_v20_0 _
    refine congrArg (V c main_v20_0) (funext fun a => Fin.ext ?_)
    match a with
    | ⟨0, _⟩ => show win3_1.index t (0 : Fin 2) * 512 + 1 * p.val = n.val; rw [e2, hn]; omega
    | ⟨1, _⟩ => show win3_1.index t (1 : Fin 2) * 8192 + 1 * k.val = k.val; rw [e3]; omega
  · intro p e n hn
    show (iblk3 V c 0 t : Vec Ideal S8192x64 .f32) _ = (iblk3 V c 0 t : Vec Ideal S8192x64 .f32) (ix2 n e)
    refine congrArg (iblk3 V c 0 t : Vec Ideal S8192x64 .f32) (funext fun a => Fin.ext ?_)
    match a with
    | ⟨0, _⟩ => show k3_off1 (grid3.coords t) (0 : Fin 2) + 1 * p.val = n.val; rw [e6, hn]; omega
    | ⟨1, _⟩ => show k3_off1 (grid3.coords t) (1 : Fin 2) + 1 * e.val = e.val; rw [e7]; omega
  · show win3_2.index t (0 : Fin 2) * 512 + 1 * (j 0).val = t.val * 512 + (j 0).val; rw [e4]; omega
  · show win3_2.index t (1 : Fin 2) * 64 + 1 * (j 1).val = (j 1).val; rw [e5]; omega

/-- An index of the result array is in point t's block iff each coordinate is in the block's range on its axis. -/
theorem mem_blk (t : Fin cfg3.N) (i : S8192x64.Idx) :
    i ∈ ((cfg3.win 2).blk t).view.set
      ↔ ∀ a : Fin 2, win3_2.index t a * S512x64.size a ≤ (i a).val ∧ (i a).val < win3_2.index t a * S512x64.size a + S512x64.size a := by
  show i ∈ ((View.whole main_v28).slice (win3_2.rect t)).set ↔ _
  rw [View.set_slice_whole, Rect.mem_set_unit]
  exact Iff.rfl

/-- Every row of the result is in the block of the point its number divided by 512 names. -/
theorem cover (i : S8192x64.Idx) : ∃ t : Fin cfg3.N, (cfg3.win 2).flush t = true ∧ i ∈ ((cfg3.win 2).blk t).view.set := by
  have hi0 : (i 0).val < 8192 := (i 0).isLt
  have hi1 : (i 1).val < 64 := (i 1).isLt
  have hN : cfg3.N = 16 := N_3
  refine ⟨⟨(i 0).val / 512, by rw [hN]; omega⟩, flush3_2 _, ?_⟩
  rw [mem_blk]
  obtain ⟨-, -, -, -, e4, e5, -, -⟩ := idx_facts ⟨(i 0).val / 512, by rw [hN]; omega⟩
  intro a
  match a with
  | ⟨0, _⟩ =>
    show win3_2.index _ (0 : Fin 2) * 512 ≤ (i 0).val ∧ (i 0).val < win3_2.index _ (0 : Fin 2) * 512 + 512
    rw [e4]; show (i 0).val / 512 * 512 ≤ (i 0).val ∧ (i 0).val < (i 0).val / 512 * 512 + 512; omega
  | ⟨1, _⟩ =>
    show win3_2.index _ (1 : Fin 2) * 64 ≤ (i 1).val ∧ (i 1).val < win3_2.index _ (1 : Fin 2) * 64 + 64
    rw [e5]; omega

/-- THE RESULT ARRAY of the fourth kernel: the message passing step over the adjacency copy and the features as the kernel
    finds them. -/
theorem value (c : Dev nD) :
    (dat3 V c).arrAt 2 cfg3.N = propagate (V c main_v20_0) (V c main_v27) :=
  (dat3 V c).arrAt_eq_of_cover 2 _ (fun t _ => flushed_eq V c t) (cover)

end Cert.KernelIdeal.Region3

end
-- ==== Proof.HostGlue.lean ====
/-
  The kernel program's result, read: its four kernels, between the host operations that cut the weights and biases out of their
  stacked arguments, compute the message-passing network of Spec.lean between the embedding gather and the per-molecule
  scatter-add.

  The buffer contents at each boundary of the program are a fold from the launch memory (the generated `W1` … `W8`). Each
  kernel's operands are read back through that fold: an argument no operation writes is as launched, an operand a host stretch
  computed is that stretch's term, an operand an earlier kernel wrote is that kernel's result array (Region0 … Region3). The
  first kernel's result is the first layer of the embedded atoms; the second's are the adjacency matrix again and the second
  layer of the first message passing step; the third's the third layer of the second step; the fourth's the third step.
-/
import proofs.«430473_j49417893707860_3_alg».proof.Proof.Gen.KernelIdeal.Frame
import proofs.«430473_j49417893707860_3_alg».proof.Proof.Region0
import proofs.«430473_j49417893707860_3_alg».proof.Proof.Region1
import proofs.«430473_j49417893707860_3_alg».proof.Proof.Region2
import proofs.«430473_j49417893707860_3_alg».proof.Proof.Region3
import proofs.«430473_j49417893707860_3_alg».proof.Proof.Spec
import Idealize.ShloMosaic.Lib.StableHlo.Run

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx Cert.Mpnn

variable (m : (ℓ : Loc nD τ sig) → Buf (Elt Ideal) ℓ) (ρ : Dev nD → PrngReg)

/-! ## The operands, as the host operations spell them -/

/-- The embedded atoms: the table's rows at the fingerprints (a negative one counted from the table's end). -/
abbrev embedded (fp : IVec S8192 32) (table : FVec Ideal S10000x64 .f32) : FVec Ideal S8192x64 .f32 :=
  Host.gather gather_S10000x64_S8192x1_S8192x64_1_0_n_n_0_1_164 table
    (broadcastInDim S8192x1 ![0] bcast_S8192_S8192x1_0
      (select (cmpi .slt fp (broadcastInDim S8192 ![] bcast_S_S8192 (constantI S_ 32 0#32)))
        (addi fp (broadcastInDim S8192 ![] bcast_S_S8192 (constantI S_ 32 10000#32))) fp))

/-- Layer l's weight and bias, cut out of the stacked arguments. -/
abbrev weight0 (W : FVec Ideal S3x64x64 .f32) : FVec Ideal S64x64 .f32 :=
  shapeCast _ (extractStridedSlice S1x64x64 ![0, 0, 0] W slices_S3x64x64_S1x64x64_0_0_0) shapeCasts_S1x64x64_S64x64
abbrev weight1 (W : FVec Ideal S3x64x64 .f32) : FVec Ideal S64x64 .f32 :=
  shapeCast _ (extractStridedSlice S1x64x64 ![1, 0, 0] W slices_S3x64x64_S1x64x64_1_0_0) shapeCasts_S1x64x64_S64x64
abbrev weight2 (W : FVec Ideal S3x64x64 .f32) : FVec Ideal S64x64 .f32 :=
  shapeCast _ (extractStridedSlice S1x64x64 ![2, 0, 0] W slices_S3x64x64_S1x64x64_2_0_0) shapeCasts_S1x64x64_S64x64
abbrev bias0 (B : FVec Ideal S3x64 .f32) : FVec Ideal S64 .f32 :=
  shapeCast _ (extractStridedSlice S1x64 ![0, 0] B slices_S3x64_S1x64_0_0) shapeCasts_S1x64_S64
abbrev bias1 (B : FVec Ideal S3x64 .f32) : FVec Ideal S64 .f32 :=
  shapeCast _ (extractStridedSlice S1x64 ![1, 0] B slices_S3x64_S1x64_1_0) shapeCasts_S1x64_S64
abbrev bias2 (B : FVec Ideal S3x64 .f32) : FVec Ideal S64 .f32 :=
  shapeCast _ (extractStridedSlice S1x64 ![2, 0] B slices_S3x64_S1x64_2_0) shapeCasts_S1x64_S64

/-- The pooled result: the network's output rows added into their molecules' rows of a zero table. -/
abbrev pooled (seg : IVec S8192 32) (x : FVec Ideal S8192x64 .f32) : FVec Ideal S256x64 .f32 :=
  Host.scatterAdd scatter_S256x64_S8192x1_S8192x64_1_0_0_1 (broadcastInDim S256x64 ![] bcast_S_S256x64 (constant S_ .f32 0x00000000#32))
    (broadcastInDim S8192x1 ![0] bcast_S8192_S8192x1_0 seg) x

/-- The features after each layer, from the launch memory. -/
abbrev feat0 (c : Dev nD) : SH.Idx → EReal :=
  dense (embedded (m ((c : Thread nD τ).loc main_arg0)) (m ((c : Thread nD τ).loc main_arg3))) (weight0 (m ((c : Thread nD τ).loc main_arg4))) (bias0 (m ((c : Thread nD τ).loc main_arg5)))
abbrev feat1 (c : Dev nD) : SH.Idx → EReal :=
  dense (propagate (m ((c : Thread nD τ).loc main_arg1)) (feat0 m c)) (weight1 (m ((c : Thread nD τ).loc main_arg4))) (bias1 (m ((c : Thread nD τ).loc main_arg5)))
abbrev feat2 (c : Dev nD) : SH.Idx → EReal :=
  dense (propagate (m ((c : Thread nD τ).loc main_arg1)) (feat1 m c)) (weight2 (m ((c : Thread nD τ).loc main_arg4))) (bias2 (m ((c : Thread nD τ).loc main_arg5)))

/-! ## The arguments through the fold: no host operation and no kernel writes one -/

theorem W1_arg1 (c : Dev nD) : W1 m ρ c (Proc.devRef .tc main_arg1) = (m ((c : Thread nD τ).loc main_arg1)) := by
  show StableHlo.after hostOps0 (W0 m ρ c) (Proc.devRef .tc main_arg1) = _
  simp only [hostOps0]; after_results
  all_goals rfl
theorem W1_arg2 (c : Dev nD) : W1 m ρ c (Proc.devRef .tc main_arg2) = (m ((c : Thread nD τ).loc main_arg2)) := by
  show StableHlo.after hostOps0 (W0 m ρ c) (Proc.devRef .tc main_arg2) = _
  simp only [hostOps0]; after_results
  all_goals rfl
theorem W1_arg4 (c : Dev nD) : W1 m ρ c (Proc.devRef .tc main_arg4) = (m ((c : Thread nD τ).loc main_arg4)) := by
  show StableHlo.after hostOps0 (W0 m ρ c) (Proc.devRef .tc main_arg4) = _
  simp only [hostOps0]; after_results
  all_goals rfl
theorem W1_arg5 (c : Dev nD) : W1 m ρ c (Proc.devRef .tc main_arg5) = (m ((c : Thread nD τ).loc main_arg5)) := by
  show StableHlo.after hostOps0 (W0 m ρ c) (Proc.devRef .tc main_arg5) = _
  simp only [hostOps0]; after_results
  all_goals rfl

theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)

theorem W3_arg1 (c : Dev nD) : W3 m ρ c (Proc.devRef .tc main_arg1) = (m ((c : Thread nD τ).loc main_arg1)) := by
  show StableHlo.after hostOps1 (W2 m ρ c) (Proc.devRef .tc main_arg1) = _
  simp only [hostOps1]; after_results; exact W2_arg1 m ρ c
theorem W3_arg2 (c : Dev nD) : W3 m ρ c (Proc.devRef .tc main_arg2) = (m ((c : Thread nD τ).loc main_arg2)) := by
  show StableHlo.after hostOps1 (W2 m ρ c) (Proc.devRef .tc main_arg2) = _
  simp only [hostOps1]; after_results; exact W2_arg2 m ρ c
theorem W3_arg4 (c : Dev nD) : W3 m ρ c (Proc.devRef .tc main_arg4) = (m ((c : Thread nD τ).loc main_arg4)) := by
  show StableHlo.after hostOps1 (W2 m ρ c) (Proc.devRef .tc main_arg4) = _
  simp only [hostOps1]; after_results; exact W2_arg4 m ρ c
theorem W3_arg5 (c : Dev nD) : W3 m ρ c (Proc.devRef .tc main_arg5) = (m ((c : Thread nD τ).loc main_arg5)) := by
  show StableHlo.after hostOps1 (W2 m ρ c) (Proc.devRef .tc main_arg5) = _
  simp only [hostOps1]; after_results; exact W2_arg5 m ρ c

theorem W4_arg2 (c : Dev nD) : W4 m ρ c (Proc.devRef .tc main_arg2) = (m ((c : Thread nD τ).loc main_arg2)) :=
  (W4_of_ne m ρ c main_arg2 (by decide)).trans (W3_arg2 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

theorem W5_arg2 (c : Dev nD) : W5 m ρ c (Proc.devRef .tc main_arg2) = (m ((c : Thread nD τ).loc main_arg2)) := by
  show StableHlo.after hostOps2 (W4 m ρ c) (Proc.devRef .tc main_arg2) = _
  simp only [hostOps2]; after_results; exact W4_arg2 m ρ c
theorem W7_arg2 (c : Dev nD) : W7 m ρ c (Proc.devRef .tc main_arg2) = (m ((c : Thread nD τ).loc main_arg2)) :=
  (W7_of_ne m ρ c main_arg2 (by decide)).trans ((W6_of_ne m ρ c main_arg2 (by decide)).trans (W5_arg2 m ρ c))

/-! ## The first kernel: the first layer of the embedded atoms -/

theorem V1_atoms (c : Dev nD) :
    (V1 m ρ c main_v6 : SH.Idx → EReal) = embedded (m ((c : Thread nD τ).loc main_arg0)) (m ((c : Thread nD τ).loc main_arg3)) := by
  show StableHlo.after hostOps0 (W0 m ρ c) (Proc.devRef .tc main_v6) = _
  simp only [hostOps0]; after_results
  all_goals rfl
theorem V1_weight (c : Dev nD) :
    (V1 m ρ c main_v9 : SW.Idx → EReal) = transpose S64x64 [1, 0] (weight0 (m ((c : Thread nD τ).loc main_arg4))) transposes_S64x64_S64x64_1_0 := by
  show StableHlo.after hostOps0 (W0 m ρ c) (Proc.devRef .tc main_v9) = _
  simp only [hostOps0]; after_results
  all_goals rfl
theorem V1_bias (c : Dev nD) :
    (V1 m ρ c main_v12 : SR.Idx → EReal) = shapeCast S1x64 (bias0 (m ((c : Thread nD τ).loc main_arg5))) shapeCasts_S64_S1x64 := by
  show StableHlo.after hostOps0 (W0 m ρ c) (Proc.devRef .tc main_v12) = _
  simp only [hostOps0]; after_results
  all_goals rfl

theorem out0 (c : Dev nD) : (dat0 (V1 m ρ) c).arrAt 3 cfg0.N = feat0 m c := by
  refine (Region0.value (V1 m ρ) c).trans ?_
  rw [V1_atoms, V1_weight, V1_bias]
  exact denseT_eq_dense _ _ _ _ _

/-! ## The second kernel: the adjacency matrix again, and the second layer of the first message passing step -/

theorem V3_adjacency (c : Dev nD) : (V3 m ρ c main_arg1 : SA.Idx → EReal) = (m ((c : Thread nD τ).loc main_arg1)) := W3_arg1 m ρ c
theorem V3_features (c : Dev nD) : (V3 m ρ c main_v13 : SH.Idx → EReal) = feat0 m c := by
  show StableHlo.after hostOps1 (W2 m ρ c) (Proc.devRef .tc main_v13) = _
  simp only [hostOps1]; after_results
  exact (W2_arr m ρ c 3).trans (out0 m ρ c)
theorem V3_weight (c : Dev nD) :
    (V3 m ρ c main_v16 : SW.Idx → EReal) = transpose S64x64 [1, 0] (weight1 (m ((c : Thread nD τ).loc main_arg4))) transposes_S64x64_S64x64_1_0 := by
  show StableHlo.after hostOps1 (W2 m ρ c) (Proc.devRef .tc main_v16) = _
  simp only [hostOps1]; after_results; rw [W2_arg4]
  all_goals rfl
theorem V3_bias (c : Dev nD) :
    (V3 m ρ c main_v19 : SR.Idx → EReal) = shapeCast S1x64 (bias1 (m ((c : Thread nD τ).loc main_arg5))) shapeCasts_S64_S1x64 := by
  show StableHlo.after hostOps1 (W2 m ρ c) (Proc.devRef .tc main_v19) = _
  simp only [hostOps1]; after_results; rw [W2_arg5]
  all_goals rfl

theorem out1_copy (c : Dev nD) : ((dat1 (V3 m ρ) c).arrAt 4 cfg1.N : SA.Idx → EReal) = (m ((c : Thread nD τ).loc main_arg1)) :=
  (Region1.value_copy (V3 m ρ) c).trans (V3_adjacency m ρ c)
theorem out1 (c : Dev nD) : (dat1 (V3 m ρ) c).arrAt 5 cfg1.N = feat1 m c := by
  refine (Region1.value (V3 m ρ) c).trans ?_
  rw [V3_adjacency, V3_features, V3_weight, V3_bias]
  exact denseT_eq_dense _ _ _ _ _

/-! ## The third kernel: the third layer of the second message passing step -/

theorem V5_adjacency (c : Dev nD) : (V5 m ρ c main_v20_0 : SA.Idx → EReal) = (m ((c : Thread nD τ).loc main_arg1)) := by
  show StableHlo.after hostOps2 (W4 m ρ c) (Proc.devRef .tc main_v20_0) = _
  simp only [hostOps2]; after_results
  exact (W4_arr m ρ c 4).trans (out1_copy m ρ c)
theorem V5_features (c : Dev nD) : (V5 m ρ c main_v20_1 : SH.Idx → EReal) = feat1 m c := by
  show StableHlo.after hostOps2 (W4 m ρ c) (Proc.devRef .tc main_v20_1) = _
  simp only [hostOps2]; after_results
  exact (W4_arr m ρ c 5).trans (out1 m ρ c)
theorem V5_weight (c : Dev nD) :
    (V5 m ρ c main_v23 : SW.Idx → EReal) = transpose S64x64 [1, 0] (weight2 (m ((c : Thread nD τ).loc main_arg4))) transposes_S64x64_S64x64_1_0 := by
  show StableHlo.after hostOps2 (W4 m ρ c) (Proc.devRef .tc main_v23) = _
  simp only [hostOps2]; after_results; rw [W4_arg4]
  all_goals rfl
theorem V5_bias (c : Dev nD) :
    (V5 m ρ c main_v26 : SR.Idx → EReal) = shapeCast S1x64 (bias2 (m ((c : Thread nD τ).loc main_arg5))) shapeCasts_S64_S1x64 := by
  show StableHlo.after hostOps2 (W4 m ρ c) (Proc.devRef .tc main_v26) = _
  simp only [hostOps2]; after_results; rw [W4_arg5]
  all_goals rfl

theorem out2 (c : Dev nD) : (dat2 (V5 m ρ) c).arrAt 4 cfg2.N = feat2 m c := by
  refine (Region2.value (V5 m ρ) c).trans ?_
  rw [V5_adjacency, V5_features, V5_weight, V5_bias]
  exact denseT_eq_dense _ _ _ _ _

/-! ## The fourth kernel: the third message passing step -/

theorem V6_adjacency (c : Dev nD) : (V6 m ρ c main_v20_0 : SA.Idx → EReal) = (m ((c : Thread nD τ).loc main_arg1)) :=
  (W6_arr m ρ c 1).trans (((dat2 (V5 m ρ) c).arrAt_in 1 rfl _).trans ((A_eq2 (V5 m ρ) c 1).trans (V5_adjacency m ρ c)))
theorem V6_features (c : Dev nD) : (V6 m ρ c main_v27 : SH.Idx → EReal) = feat2 m c :=
  (W6_arr m ρ c 4).trans (out2 m ρ c)

theorem out3 (c : Dev nD) :
    (dat3 (V6 m ρ) c).arrAt 2 cfg3.N = propagate (m ((c : Thread nD τ).loc main_arg1)) (feat2 m c) := by
  refine (Region3.value (V6 m ρ) c).trans ?_
  rw [V6_adjacency, V6_features]

/-! ## The result -/

/-- THE KERNEL PROGRAM'S RESULT is the network of the embedded atoms, pooled. -/
theorem result (c : Dev nD) :
    W8 m ρ c (Proc.devRef .tc main_v31)
      = pooled (m ((c : Thread nD τ).loc main_arg2))
          (network (embedded (m ((c : Thread nD τ).loc main_arg0)) (m ((c : Thread nD τ).loc main_arg3))) (m ((c : Thread nD τ).loc main_arg1))
            (weight0 (m ((c : Thread nD τ).loc main_arg4))) (bias0 (m ((c : Thread nD τ).loc main_arg5)))
            (weight1 (m ((c : Thread nD τ).loc main_arg4))) (bias1 (m ((c : Thread nD τ).loc main_arg5)))
            (weight2 (m ((c : Thread nD τ).loc main_arg4))) (bias2 (m ((c : Thread nD τ).loc main_arg5)))) := by
  show StableHlo.after hostOps4 (W7 m ρ c) (Proc.devRef .tc main_v31) = _
  simp only [hostOps4]; after_results
  rw [W7_arg2, (W7_arr m ρ c 2).trans (out3 m ρ c)]
  rfl

end Cert.KernelIdeal.Glue

end
-- ==== Proof.RefValue.lean ====
/-
  The reference's result, read: it is the message-passing network of Spec.lean between its embedding gather and its
  per-molecule scatter-add.

  Each of its three layers is max (v · Wᵀ + b, 0): a host product contracting both operands' last axes, a
  bias broadcast along the atoms, a maximum with a broadcast zero — `dense` at every index (`layer_eq`); each message
  passing step h + A · h is `propagate` (`step_eq`). No law of arithmetic is used: every operation is read at an index.
-/
import proofs.«430473_j49417893707860_3_alg».proof.Proof.Gen.ReferenceIdeal.Run
import proofs.«430473_j49417893707860_3_alg».proof.Proof.LibPlainDot
import proofs.«430473_j49417893707860_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Mpnn Cert.Lib.PlainDot

/-- A bias broadcast to a row and then along the atoms reads, at (n, e), the bias at e. -/
theorem bias_apply (b : FVec Ideal S64 .f32) (n : Fin 8192) (e : Fin 64) :
    broadcastInDim S8192x64 ![0, 1] bcast_S1x64_S8192x64_0_1 (broadcastInDim S1x64 ![1] bcast_S64_S1x64_1 b) (ix2 n e) = b (ix1 e) := by
  refine (broadcastInDim_apply _ bcast_S1x64_S8192x64_0_1 _ (ix2 n e) (ix2 0 e) fun a => ?_).trans
    (broadcastInDim_apply _ bcast_S64_S1x64_1 b (ix2 0 e) (ix1 e) fun a => ?_)
  · match a with
    | ⟨0, _⟩ => rfl
    | ⟨1, _⟩ => rfl
  · match a with
    | ⟨0, _⟩ => rfl

/-- The broadcast zero is zero everywhere. -/
theorem zero_apply (i : S8192x64.Idx) :
    broadcastInDim S8192x64 ![] bcast_S_S8192x64 (constant (F := Ideal) S_ .f32 0x00000000#32) i = (0 : EReal) :=
  (broadcastInDim_apply _ bcast_S_S8192x64 _ i ix0 fun a => a.elim0).trans Ideal.ofBits_zero_f32

/-- A layer as the reference spells it: the product contracting both last axes, the bias broadcast along the atoms, the
    maximum with a broadcast zero. -/
def refLayer (v : FVec Ideal S8192x64 .f32) (w : FVec Ideal S64x64 .f32) (b : FVec Ideal S64 .f32) : FVec Ideal S8192x64 .f32 :=
  maximumf (addf (Host.dotGeneral dot_S8192x64_S64x64_S8192x64_1_1_0_0_n_n none v w)
      (broadcastInDim S8192x64 ![0, 1] bcast_S1x64_S8192x64_0_1 (broadcastInDim S1x64 ![1] bcast_S64_S1x64_1 b)))
    (broadcastInDim S8192x64 ![] bcast_S_S8192x64 (constant S_ .f32 0x00000000#32))

/-- A message passing step as the reference spells it: the features plus the adjacency's product with them. -/
def refStep (a : FVec Ideal S8192x8192 .f32) (h : FVec Ideal S8192x64 .f32) : FVec Ideal S8192x64 .f32 :=
  addf h (Host.dotGeneral dot_S8192x8192_S8192x64_S8192x64_1_0_0_1_n_n none a h)

/-- A layer of the reference is `dense`. -/
theorem layer_eq (v : FVec Ideal S8192x64 .f32) (w : FVec Ideal S64x64 .f32) (b : FVec Ideal S64 .f32) :
    refLayer v w b = dense v w b := by
  unfold refLayer
  funext i
  obtain ⟨n, e, rfl⟩ : ∃ (n : Fin 8192) (e : Fin 64), i = ix2 n e := ⟨i 0, i 1, eq_ix2 i⟩
  rw [dense_apply, maximumf_apply, addf_apply, zero_apply, bias_apply]
  exact congrArg (fun s : EReal => max (s + b (ix1 e)) 0) (dotGeneral_transposedRhs_ix2 8192 64 64 none _ v w n e)

/-- A message passing step of the reference is `propagate`. -/
theorem step_eq (a : FVec Ideal S8192x8192 .f32) (h : FVec Ideal S8192x64 .f32) :
    refStep a h = propagate a h := by
  unfold refStep
  funext i
  obtain ⟨n, e, rfl⟩ : ∃ (n : Fin 8192) (e : Fin 64), i = ix2 n e := ⟨i 0, i 1, eq_ix2 i⟩
  rw [propagate_apply, addf_apply]
  exact congrArg (fun s : EReal => h (ix2 n e) + s) (dotGeneral_plain_ix2 8192 8192 64 none _ a h n e)

/-- The embedded atoms: the table's rows at the fingerprints (a negative one counted from the table's end). -/
abbrev embedded (fp : IVec S8192 32) (table : FVec Ideal S10000x64 .f32) : FVec Ideal S8192x64 .f32 :=
  Host.gather gather_S10000x64_S8192x1_S8192x64_1_0_n_n_0_1_164 table
    (broadcastInDim S8192x1 ![0] bcast_S8192_S8192x1_0
      (select (cmpi .slt fp (broadcastInDim S8192 ![] bcast_S_S8192 (constantI S_ 32 0#32)))
        (addi fp (broadcastInDim S8192 ![] bcast_S_S8192 (constantI S_ 32 10000#32))) fp))

/-- Layer l's weight and bias, cut out of the stacked arguments. -/
abbrev weight0 (W : FVec Ideal S3x64x64 .f32) : FVec Ideal S64x64 .f32 :=
  shapeCast _ (extractStridedSlice S1x64x64 ![0, 0, 0] W slices_S3x64x64_S1x64x64_0_0_0) shapeCasts_S1x64x64_S64x64
abbrev weight1 (W : FVec Ideal S3x64x64 .f32) : FVec Ideal S64x64 .f32 :=
  shapeCast _ (extractStridedSlice S1x64x64 ![1, 0, 0] W slices_S3x64x64_S1x64x64_1_0_0) shapeCasts_S1x64x64_S64x64
abbrev weight2 (W : FVec Ideal S3x64x64 .f32) : FVec Ideal S64x64 .f32 :=
  shapeCast _ (extractStridedSlice S1x64x64 ![2, 0, 0] W slices_S3x64x64_S1x64x64_2_0_0) shapeCasts_S1x64x64_S64x64
abbrev bias0 (B : FVec Ideal S3x64 .f32) : FVec Ideal S64 .f32 :=
  shapeCast _ (extractStridedSlice S1x64 ![0, 0] B slices_S3x64_S1x64_0_0) shapeCasts_S1x64_S64
abbrev bias1 (B : FVec Ideal S3x64 .f32) : FVec Ideal S64 .f32 :=
  shapeCast _ (extractStridedSlice S1x64 ![1, 0] B slices_S3x64_S1x64_1_0) shapeCasts_S1x64_S64
abbrev bias2 (B : FVec Ideal S3x64 .f32) : FVec Ideal S64 .f32 :=
  shapeCast _ (extractStridedSlice S1x64 ![2, 0] B slices_S3x64_S1x64_2_0) shapeCasts_S1x64_S64

/-- The pooled result: the network's output rows added into their molecules' rows of a zero table. -/
abbrev pooled (seg : IVec S8192 32) (x : FVec Ideal S8192x64 .f32) : FVec Ideal S256x64 .f32 :=
  Host.scatterAdd scatter_S256x64_S8192x1_S8192x64_1_0_0_1 (broadcastInDim S256x64 ![] bcast_S_S256x64 (constant S_ .f32 0x00000000#32))
    (broadcastInDim S8192x1 ![0] bcast_S8192_S8192x1_0 seg) x

/-- THE REFERENCE'S RESULT is the network of the embedded atoms, pooled. -/
theorem result_eq (m : (ℓ : Loc nD τ sig) → Buf (Elt Ideal) ℓ) (c : Dev nD) :
    Cert.ReferenceIdeal.Value.res_main_v42 (F := Ideal) m c
      = pooled (m ((c.tc : Thread nD τ).loc main_arg2))
          (network (embedded (m ((c.tc : Thread nD τ).loc main_arg0)) (m ((c.tc : Thread nD τ).loc main_arg3)))
            (m ((c.tc : Thread nD τ).loc main_arg1))
            (weight0 (m ((c.tc : Thread nD τ).loc main_arg4))) (bias0 (m ((c.tc : Thread nD τ).loc main_arg5)))
            (weight1 (m ((c.tc : Thread nD τ).loc main_arg4))) (bias1 (m ((c.tc : Thread nD τ).loc main_arg5)))
            (weight2 (m ((c.tc : Thread nD τ).loc main_arg4))) (bias2 (m ((c.tc : Thread nD τ).loc main_arg5)))) := by
  have hterm : Cert.ReferenceIdeal.Value.res_main_v42 (F := Ideal) m c
      = pooled (m ((c.tc : Thread nD τ).loc main_arg2))
          (refStep (m ((c.tc : Thread nD τ).loc main_arg1))
            (refLayer (refStep (m ((c.tc : Thread nD τ).loc main_arg1))
              (refLayer (refStep (m ((c.tc : Thread nD τ).loc main_arg1))
                (refLayer (embedded (m ((c.tc : Thread nD τ).loc main_arg0)) (m ((c.tc : Thread nD τ).loc main_arg3)))
                  (weight0 (m ((c.tc : Thread nD τ).loc main_arg4))) (bias0 (m ((c.tc : Thread nD τ).loc main_arg5)))))
                (weight1 (m ((c.tc : Thread nD τ).loc main_arg4))) (bias1 (m ((c.tc : Thread nD τ).loc main_arg5)))))
              (weight2 (m ((c.tc : Thread nD τ).loc main_arg4))) (bias2 (m ((c.tc : Thread nD τ).loc main_arg5))))) := by
    unfold Cert.ReferenceIdeal.Value.res_main_v42 refStep refLayer
    rfl
  rw [hterm, step_eq, layer_eq, step_eq, layer_eq, step_eq, layer_eq]
  rfl

end Cert.ReferenceIdeal.RefValue

end
-- ==== Proof.lean ====
/- The proof of `Cert.Claim` (proofs.«430473_j49417893707860_3_alg».proof.Defs): a kernel program and its reference compute one message-passing network.

   Both programs embed 8192 atoms by a row gather from a table, run three layers — each a linear map with bias and a
   rectifier, h = max (v · Wᵀ + b, 0), followed by a residual message passing step v' = h + A · h over the 8192 × 8192
   adjacency matrix — and add the atoms' rows into their molecules' rows. The reference does each step on whole arrays; the
   kernel program does the first layer in one kernel over 8 row blocks, fuses each message passing step with the next layer in
   a kernel over 32 or 16 row blocks (the first of them also writing a copy of the adjacency matrix in a narrower float format,
   which the later ones read), and does the last step in a fourth kernel. Over the extended reals a change of float format is
   the identity and a block product into a zero accumulator is the plain sum, so, row block by row block, each kernel's result
   array is the same function of its operands as the reference's whole-array operations (Region0 … Region3, read back through
   the program's boundaries in HostGlue; the reference in RefValue; the common function in Spec). No law of arithmetic beyond
   reading each operation at an index is used, and the precondition (finite inputs) is not needed.

   The three frames: the two kernel programs' are the generated ones; the reference's is its generated run with the result
   dropped. `preserves` has no conjunct (the idealization rewrote nothing). `algebraic` pairs the kernel program's run with
   its result named (KernelRun) with the reference's generated run: both results are the network of the embedded atoms, pooled. -/
import proofs.«430473_j49417893707860_3_alg».proof.Defs
import proofs.«430473_j49417893707860_3_alg».proof.Proof.Gen.Kernel
import proofs.«430473_j49417893707860_3_alg».proof.Proof.Gen.Kernel.Skeleton
import proofs.«430473_j49417893707860_3_alg».proof.Proof.Gen.Kernel.Launch
import proofs.«430473_j49417893707860_3_alg».proof.Proof.Gen.Kernel.Points
import proofs.«430473_j49417893707860_3_alg».proof.Proof.Gen.Kernel.Frame
import proofs.«430473_j49417893707860_3_alg».proof.Proof.Gen.KernelIdeal
import proofs.«430473_j49417893707860_3_alg».proof.Proof.Gen.KernelIdeal.Skeleton
import proofs.«430473_j49417893707860_3_alg».proof.Proof.Gen.KernelIdeal.Launch
import proofs.«430473_j49417893707860_3_alg».proof.Proof.Gen.KernelIdeal.Points
import proofs.«430473_j49417893707860_3_alg».proof.Proof.Gen.KernelIdeal.Frame
import proofs.«430473_j49417893707860_3_alg».proof.Proof.Gen.ReferenceIdeal
import proofs.«430473_j49417893707860_3_alg».proof.Proof.Gen.ReferenceIdeal.Run
import proofs.«430473_j49417893707860_3_alg».proof.Proof.Gen.Pre_finite_inputs
import proofs.«430473_j49417893707860_3_alg».proof.Proof.KernelRun
import proofs.«430473_j49417893707860_3_alg».proof.Proof.HostGlue
import proofs.«430473_j49417893707860_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the network of the embedded atoms, pooled per molecule:
    the kernel program's result read back through its four kernels, the reference's read off its run. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Glue.result m ρ c), (h c).2⟩)
      (Cert.KernelIdeal.RunResult.run_result (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.RefValue.result_eq]
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
